-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x8192 : Shape := ⟨3, ![1, 2048, 8192]⟩
abbrev S8192x2048 : Shape := ⟨2, ![8192, 2048]⟩
abbrev S8192x16 : Shape := ⟨2, ![8192, 16]⟩
abbrev S_ : Shape := ⟨0, ![]⟩

class Facts : Prop where
  bcast_S_S1x2048x8192 : S_.BroadcastsInDim S1x2048x8192 (![] : Fin 0 → Fin S1x2048x8192.rank)
  reducesTo_S1x2048x8192_S_d0_1_2 : S1x2048x8192.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S1x2048x8192 .f32) (main_arg1 : IVec S8192x2048 32) (main_arg2 : FVec F S8192x16 .f32) : IVec S_ 1 :=
  let main_v0 : FVec F S1x2048x8192 .f32 := Host.absf main_arg0
  let main_cst : FVec F S_ .f32 := constant S_ .f32 0x7F800000#32
  let main_v1 : FVec F S1x2048x8192 .f32 := broadcastInDim S1x2048x8192 ![] bcast_S_S1x2048x8192 main_cst
  let main_v2 : IVec S1x2048x8192 1 := cmpf .olt main_v0 main_v1
  let main_c : IVec S_ 1 := constantI S_ 1 1#1
  let main_v3 : IVec S_ 1 := (fun x v => Host.reduce IntOp.andi x v reducesTo_S1x2048x8192_S_d0_1_2 h_S_) main_v2 main_c
  let main_v4 : FVec F S8192x16 .f32 := Host.absf main_arg2
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S1x2048x8192 : Shape := ⟨3, ![1, 2048, 8192]⟩
abbrev S8192x2048 : Shape := ⟨2, ![8192, 2048]⟩
abbrev S8192x16 : Shape := ⟨2, ![8192, 16]⟩
abbrev S2048x8192 : Shape := ⟨2, ![2048, 8192]⟩
abbrev S2048x2048x4 : Shape := ⟨3, ![2048, 2048, 4]⟩
abbrev S2048x4x2048 : Shape := ⟨3, ![2048, 4, 2048]⟩
abbrev S256x2048 : Shape := ⟨2, ![256, 2048]⟩
abbrev S256x16 : Shape := ⟨2, ![256, 16]⟩
abbrev S2048x256 : Shape := ⟨2, ![2048, 256]⟩
abbrev S_ : Shape := ⟨0, ![]⟩
abbrev S256x1 : Shape := ⟨2, ![256, 1]⟩
abbrev S256x512 : Shape := ⟨2, ![256, 512]⟩
abbrev S2048x512 : Shape := ⟨2, ![2048, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x2048x8192, .f32⟩
  | .hbm, ⟨1, _⟩ => ⟨S8192x2048, .i32⟩
  | .hbm, ⟨2, _⟩ => ⟨S8192x16, .f32⟩
  | .hbm, ⟨3, _⟩ => ⟨S2048x8192, .f32⟩
  | .hbm, ⟨4, _⟩ => ⟨S2048x8192, .bf16⟩
  | .hbm, ⟨5, _⟩ => ⟨S2048x2048x4, .bf16⟩
  | .hbm, ⟨6, _⟩ => ⟨S2048x4x2048, .bf16⟩
  | .hbm, ⟨7, _⟩ => ⟨S2048x8192, .bf16⟩
  | .hbm, ⟨8, _⟩ => ⟨S2048x8192, .f32⟩
  | .hbm, ⟨9, _⟩ => ⟨S1x2048x8192, .f32⟩
  | .local _ .vmem, ⟨0, _⟩ => ⟨S256x2048, .i32⟩
  | .local _ .vmem, ⟨1, _⟩ => ⟨S256x2048, .i32⟩
  | .local _ .vmem, ⟨2, _⟩ => ⟨S256x16, .f32⟩
  | .local _ .vmem, ⟨3, _⟩ => ⟨S256x16, .f32⟩
  | .local _ .vmem, ⟨4, _⟩ => ⟨S2048x256, .f32⟩
  | .local _ .vmem, ⟨5, _⟩ => ⟨S2048x256, .f32⟩
  | .local _ .vmem, ⟨6, _⟩ => ⟨S2048x8192, .bf16⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x2048x8192_S2048x8192 : S1x2048x8192.ShapeCasts S2048x8192
  bitsLt_bf16_f32 : FTy.bits .bf16 < FTy.bits .f32
  shapeCasts_S2048x8192_S2048x2048x4 : S2048x8192.ShapeCasts S2048x2048x4
  transposes_S2048x2048x4_S2048x4x2048_0_2_1 : S2048x2048x4.Transposes [0, 2, 1] S2048x4x2048
  shapeCasts_S2048x4x2048_S2048x8192 : S2048x4x2048.ShapeCasts S2048x8192
  inb_S256x16_S256x16_0_0 : ∀ a, (![0, 0] : Fin 2 → Nat) a + S256x16.size a ≤ S256x16.size a
  h_S256x16 : 0 < S256x16.numel
  slices_S256x16_o0_0_S256x1 : S256x16.Slices ![0, 0] S256x1
  slices_S256x16_o0_1_S256x1 : S256x16.Slices ![0, 1] S256x1
  slices_S256x16_o0_2_S256x1 : S256x16.Slices ![0, 2] S256x1
  slices_S256x16_o0_3_S256x1 : S256x16.Slices ![0, 3] S256x1
  slices_S256x16_o0_4_S256x1 : S256x16.Slices ![0, 4] S256x1
  slices_S256x16_o0_5_S256x1 : S256x16.Slices ![0, 5] S256x1
  slices_S256x16_o0_6_S256x1 : S256x16.Slices ![0, 6] S256x1
  slices_S256x16_o0_7_S256x1 : S256x16.Slices ![0, 7] S256x1
  slices_S256x16_o0_8_S256x1 : S256x16.Slices ![0, 8] S256x1
  slices_S256x16_o0_9_S256x1 : S256x16.Slices ![0, 9] S256x1
  slices_S256x16_o0_10_S256x1 : S256x16.Slices ![0, 10] S256x1
  slices_S256x16_o0_11_S256x1 : S256x16.Slices ![0, 11] S256x1
  slices_S256x16_o0_12_S256x1 : S256x16.Slices ![0, 12] S256x1
  slices_S256x16_o0_13_S256x1 : S256x16.Slices ![0, 13] S256x1
  slices_S256x16_o0_14_S256x1 : S256x16.Slices ![0, 14] S256x1
  slices_S256x16_o0_15_S256x1 : S256x16.Slices ![0, 15] S256x1
  inb_S256x2048_S256x512_0_0 : ∀ a, (![0, 0] : Fin 2 → Nat) a + S256x512.size a ≤ S256x2048.size a
  h_S256x512 : 0 < S256x512.numel
  shapeCasts_S256x1_S256x1 : S256x1.ShapeCasts S256x1
  broadcasts_S256x1_S256x512 : S256x1.Broadcasts S256x512
  inb_S2048x8192_S2048x512_0_0 : ∀ a, (![0, 0] : Fin 2 → Nat) a + S2048x512.size a ≤ S2048x8192.size a
  h_S2048x512 : 0 < S2048x512.numel
  inb_S256x2048_S256x512_0_512 : ∀ a, (![0, 512] : Fin 2 → Nat) a + S256x512.size a ≤ S256x2048.size a
  inb_S2048x8192_S2048x512_0_512 : ∀ a, (![0, 512] : Fin 2 → Nat) a + S2048x512.size a ≤ S2048x8192.size a
  inb_S256x2048_S256x512_0_1024 : ∀ a, (![0, 1024] : Fin 2 → Nat) a + S256x512.size a ≤ S256x2048.size a
  inb_S2048x8192_S2048x512_0_1024 : ∀ a, (![0, 1024] : Fin 2 → Nat) a + S2048x512.size a ≤ S2048x8192.size a
  inb_S256x2048_S256x512_0_1536 : ∀ a, (![0, 1536] : Fin 2 → Nat) a + S256x512.size a ≤ S256x2048.size a
  inb_S2048x8192_S2048x512_0_1536 : ∀ a, (![0, 1536] : Fin 2 → Nat) a + S2048x512.size a ≤ S2048x8192.size a
  inb_S2048x8192_S2048x512_0_2048 : ∀ a, (![0, 2048] : Fin 2 → Nat) a + S2048x512.size a ≤ S2048x8192.size a
  inb_S2048x8192_S2048x512_0_2560 : ∀ a, (![0, 2560] : Fin 2 → Nat) a + S2048x512.size a ≤ S2048x8192.size a
  inb_S2048x8192_S2048x512_0_3072 : ∀ a, (![0, 3072] : Fin 2 → Nat) a + S2048x512.size a ≤ S2048x8192.size a
  inb_S2048x8192_S2048x512_0_3584 : ∀ a, (![0, 3584] : Fin 2 → Nat) a + S2048x512.size a ≤ S2048x8192.size a
  inb_S2048x8192_S2048x512_0_4096 : ∀ a, (![0, 4096] : Fin 2 → Nat) a + S2048x512.size a ≤ S2048x8192.size a
  inb_S2048x8192_S2048x512_0_4608 : ∀ a, (![0, 4608] : Fin 2 → Nat) a + S2048x512.size a ≤ S2048x8192.size a
  inb_S2048x8192_S2048x512_0_5120 : ∀ a, (![0, 5120] : Fin 2 → Nat) a + S2048x512.size a ≤ S2048x8192.size a
  inb_S2048x8192_S2048x512_0_5632 : ∀ a, (![0, 5632] : Fin 2 → Nat) a + S2048x512.size a ≤ S2048x8192.size a
  inb_S2048x8192_S2048x512_0_6144 : ∀ a, (![0, 6144] : Fin 2 → Nat) a + S2048x512.size a ≤ S2048x8192.size a
  inb_S2048x8192_S2048x512_0_6656 : ∀ a, (![0, 6656] : Fin 2 → Nat) a + S2048x512.size a ≤ S2048x8192.size a
  inb_S2048x8192_S2048x512_0_7168 : ∀ a, (![0, 7168] : Fin 2 → Nat) a + S2048x512.size a ≤ S2048x8192.size a
  inb_S2048x8192_S2048x512_0_7680 : ∀ a, (![0, 7680] : Fin 2 → Nat) a + S2048x512.size a ≤ S2048x8192.size a
  inb_S2048x256_S2048x256_0_0 : ∀ a, (![0, 0] : Fin 2 → Nat) a + S2048x256.size a ≤ S2048x256.size a
  h_S2048x256 : 0 < S2048x256.numel
  bcast_S2048x8192_S1x2048x8192_1_2 : S2048x8192.BroadcastsInDim S1x2048x8192 (![1, 2] : Fin 2 → Fin S1x2048x8192.rank)
  dot_S2048x512_S256x512_S2048x256_1_1_0_0_n_n_wf : DotDims.WF S2048x512 S256x512 S2048x256 [1] [1] [0] [0] [] []
  hcc0_scratch1 : 6 + S_.numel ≤ 7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x2048.size a ≤ S8192x2048.size a
  hwx0_0 : ∀ i : grid0.Coords, EltTy.bits .i32 = 32 ∨ (Rect.block (s := S8192x2048) S256x2048.size (cc0_transform_1 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S256x16.size a ≤ S8192x16.size a
  hwx0_1 : ∀ i : grid0.Coords, EltTy.bits .f32 = 32 ∨ (Rect.block (s := S8192x16) S256x16.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S2048x256.size a ≤ S2048x8192.size a
  hwx0_2 : ∀ i : grid0.Coords, EltTy.bits .f32 = 32 ∨ (Rect.block (s := S2048x8192) S2048x256.size (cc0_transform_3 i) (hinb0_2 i)).WholeWords (EltTy.packing .f32)

variable [Facts₀]

abbrev cc0_scratch1 : DmaSems sig S_ := SemArray.consecutive 6 S_ hcc0_scratch1
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_arg1) S256x2048.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x256.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x2048x8192 : Shape := ⟨3, ![1, 2048, 8192]⟩
abbrev S8192x2048 : Shape := ⟨2, ![8192, 2048]⟩
abbrev S8192x16 : Shape := ⟨2, ![8192, 16]⟩
abbrev S4 : Shape := ⟨1, ![4]⟩
abbrev S8192x2048x1 : Shape := ⟨3, ![8192, 2048, 1]⟩
abbrev S1x1x4 : Shape := ⟨3, ![1, 1, 4]⟩
abbrev S8192x2048x4 : Shape := ⟨3, ![8192, 2048, 4]⟩
abbrev S_ : Shape := ⟨0, ![]⟩
abbrev S8192x8192 : Shape := ⟨2, ![8192, 8192]⟩
abbrev S8192x8192x1 : Shape := ⟨3, ![8192, 8192, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S8192x2048, .i32⟩
  | .hbm, ⟨2, _⟩ => ⟨S8192x16, .f32⟩
  | .hbm, ⟨3, _⟩ => ⟨S4, .i32⟩
  | .hbm, ⟨4, _⟩ => ⟨S8192x2048x1, .i32⟩
  | .hbm, ⟨5, _⟩ => ⟨S1x1x4, .i32⟩
  | .hbm, ⟨6, _⟩ => ⟨S8192x2048x4, .i32⟩
  | .hbm, ⟨7, _⟩ => ⟨S8192x2048x4, .i32⟩
  | .hbm, ⟨8, _⟩ => ⟨S8192x2048x4, .i32⟩
  | .hbm, ⟨9, _⟩ => ⟨S_, .i32⟩
  | .hbm, ⟨10, _⟩ => ⟨S8192x2048x4, .i32⟩
  | .hbm, ⟨11, _⟩ => ⟨S8192x2048x4, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i32⟩
  | .hbm, ⟨23, _⟩ => ⟨S8192x8192x1, .i32⟩
  | .hbm, ⟨24, _⟩ => ⟨S1, .i32⟩
  | .hbm, ⟨25, _⟩ => ⟨S_, .i32⟩
  | .hbm, ⟨26, _⟩ => ⟨S8192x8192x1, .i32⟩
  | .hbm, ⟨27, _⟩ => ⟨S8192x8192x1, .i1⟩
  | .hbm, ⟨28, _⟩ => ⟨S1x1x1, .i32⟩
  | .hbm, ⟨29, _⟩ => ⟨S8192x8192x1, .i32⟩
  | .hbm, ⟨30, _⟩ => ⟨S8192x8192x1, .i1⟩
  | .hbm, ⟨31, _⟩ => ⟨S8192x8192x1, .i1⟩
  | .hbm, ⟨32, _⟩ => ⟨S_, .i1⟩
  | .hbm, ⟨33, _⟩ => ⟨S8192x8192, .i1⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S1x2048x8192, .f32⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S8192x2048_S8192x2048x1_0_1 : S8192x2048.BroadcastsInDim S8192x2048x1 (![0, 1] : Fin 2 → Fin S8192x2048x1.rank)
  bcast_S4_S1x1x4_2 : S4.BroadcastsInDim S1x1x4 (![2] : Fin 1 → Fin S1x1x4.rank)
  bcast_S8192x2048x1_S8192x2048x4_0_1_2 : S8192x2048x1.BroadcastsInDim S8192x2048x4 (![0, 1, 2] : Fin 3 → Fin S8192x2048x4.rank)
  bcast_S1x1x4_S8192x2048x4_0_1_2 : S1x1x4.BroadcastsInDim S8192x2048x4 (![0, 1, 2] : Fin 3 → Fin S8192x2048x4.rank)
  bcast_S_S8192x2048x4 : S_.BroadcastsInDim S8192x2048x4 (![] : Fin 0 → Fin S8192x2048x4.rank)
  shapeCasts_S8192x2048x4_S8192x8192 : S8192x2048x4.ShapeCasts S8192x8192
  bcast_S_S8192x8192 : S_.BroadcastsInDim S8192x8192 (![] : Fin 0 → Fin S8192x8192.rank)
  shapeCasts_S8192x8192_S8192x8192x1 : S8192x8192.ShapeCasts S8192x8192x1
  bcast_S_S8192x8192x1 : S_.BroadcastsInDim S8192x8192x1 (![] : Fin 0 → Fin S8192x8192x1.rank)
  bcast_S1_S1x1x1_2 : S1.BroadcastsInDim S1x1x1 (![2] : Fin 1 → Fin S1x1x1.rank)
  bcast_S1x1x1_S8192x8192x1_0_1_2 : S1x1x1.BroadcastsInDim S8192x8192x1 (![0, 1, 2] : Fin 3 → Fin S8192x8192x1.rank)
  reducesTo_S8192x8192x1_S8192x8192_d2 : S8192x8192x1.ReducesTo [2] S8192x8192
  h_S_ : 0 < S_.numel
  gather_S8192x16_S8192x8192x1_S8192x8192_n_1_0_0_1_2_11_wf : GatherDims.WF S8192x16 S8192x8192x1 S8192x8192 [] [1] [0] [1] [0] 2 ![1, 1]
  dot_S1x2048x8192_S8192x8192_S1x2048x8192_2_1_01_0_n_n_wf : DotDims.WF S1x2048x8192 S8192x8192 S1x2048x8192 [2] [1] [0, 1] [0] [] []

variable [Facts₀]

def gather_S8192x16_S8192x8192x1_S8192x8192_n_1_0_0_1_2_11 : GatherDims S8192x16 S8192x8192x1 S8192x8192 where
  offsetDims := []
  collapsedSliceDims := [1]
  operandBatchingDims := [0]
  startIndicesBatchingDims := [0]
  startIndexMap := [1]
  indexVectorDim := 2
  sliceSizes := ![1, 1]
  wf := gather_S8192x16_S8192x8192x1_S8192x8192_n_1_0_0_1_2_11_wf
def dot_S1x2048x8192_S8192x8192_S1x2048x8192_2_1_01_0_n_n : DotDims S1x2048x8192 S8192x8192 S1x2048x8192 where
  lhsContracting := [2]
  rhsContracting := [1]
  lhsNonContracting := [0, 1]
  rhsNonContracting := [0]
  lhsBatch := []
  rhsBatch := []
  wf := dot_S1x2048x8192_S8192x8192_S1x2048x8192_2_1_01_0_n_n_wf

class Facts : Prop extends Facts₀ where

variable [Facts]
-- ==== Proof.RefTerm.lean ====
/-
  The reference program's result as ONE pure term of its three arguments, in the stages its text has:
  the packed words spread over a trailing axis of four and shifted right by 0, 8, 16, 24, masked to eight bits and
  re-laid as an 8192 × 8192 array of codes; the codes shifted right by four (the table index); `take_along_axis` in its
  fill mode (a negative index wrapped by the table's extent, a range test `0 ≤ · ≤ 15`, the gather along the table
  axis, and a fill value wherever the range test fails); and the contraction of `x`'s last axis against the gathered
  weight's last axis.
-/
import proofs.«414830_j5643587027570_3_alg».proof.ReferenceIdeal

noncomputable section

namespace Cert.ReferenceIdeal.RefTerm

open Idealize.ShloMosaic Cert.ReferenceIdeal

variable {F : FTy → Type} [FloatOps F] [Facts]
open Facts₀ Facts

/-- The four byte shifts `[0, 8, 16, 24]`. -/
def shifts : IVec S4 32 := fun i => lit0 (S4.rowMajor i)

/-- Each packed word beside each of the four shifts, shifted and masked to its 8-bit code, as `(o, g, s)`. -/
def codes3 (q : IVec S8192x2048 32) : IVec S8192x2048x4 32 :=
  andi
    (Host.shrsi
      (broadcastInDim S8192x2048x4 ![0, 1, 2] bcast_S8192x2048x1_S8192x2048x4_0_1_2
        (broadcastInDim S8192x2048x1 ![0, 1] bcast_S8192x2048_S8192x2048x1_0_1 q))
      (broadcastInDim S8192x2048x4 ![0, 1, 2] bcast_S1x1x4_S8192x2048x4_0_1_2
        (broadcastInDim S1x1x4 ![2] bcast_S4_S1x1x4_2 shifts)))
    (broadcastInDim S8192x2048x4 ![] bcast_S_S8192x2048x4 (constantI S_ 32 255#32))

/-- The table index of every `(o, k)`: the codes re-laid with `k = 4g + s`, then their top four bits. -/
def idx (q : IVec S8192x2048 32) : IVec S8192x8192 32 :=
  Host.shrsi (shapeCast S8192x8192 (codes3 q) shapeCasts_S8192x2048x4_S8192x8192)
    (broadcastInDim S8192x8192 ![] bcast_S_S8192x8192 (constantI S_ 32 4#32))

/-- `take_along_axis`'s index normalisation: a negative index has the table's extent 16 added; then a trailing unit axis. -/
def wrapped (a : IVec S8192x8192 32) : IVec S8192x8192x1 32 :=
  shapeCast S8192x8192x1
    (select (cmpi .slt a (broadcastInDim S8192x8192 ![] bcast_S_S8192x8192 (constantI S_ 32 0#32)))
      (addi a (broadcastInDim S8192x8192 ![] bcast_S_S8192x8192 (constantI S_ 32 16#32))) a)
    shapeCasts_S8192x8192_S8192x8192x1

/-- Its range test `0 ≤ w ≤ 15`, reduced by `and` over the trailing unit axis. -/
def inRange (w : IVec S8192x8192x1 32) : IVec S8192x8192 1 :=
  Host.reduce IntOp.andi
    (andi (cmpi .sge w (broadcastInDim S8192x8192x1 ![] bcast_S_S8192x8192x1 (constantI S_ 32 0#32)))
      (cmpi .sle w (broadcastInDim S8192x8192x1 ![0, 1, 2] bcast_S1x1x1_S8192x8192x1_0_1_2
        (broadcastInDim S1x1x1 ![2] bcast_S1_S1x1x1_2 (constantI S1 32 15#32)))))
    (constantI S_ 1 1#1) reducesTo_S8192x8192x1_S8192x8192_d2 h_S_

/-- The gathered weight: `lut[o, w[o, k]]` where the range test holds, the fill value elsewhere. -/
def taken (lut : FVec F S8192x16 .f32) (a : IVec S8192x8192 32) : FVec F S8192x8192 .f32 :=
  select (inRange (wrapped a))
    (Host.gather gather_S8192x16_S8192x8192x1_S8192x8192_n_1_0_0_1_2_11 lut (wrapped a))
    (broadcastInDim S8192x8192 ![] bcast_S_S8192x8192 (constant (F := F) S_ .f32 0x7FC00000#32))

/-- The reference's result: `x` contracted against the gathered weight. -/
def refTerm (x : FVec F S1x2048x8192 .f32) (q : IVec S8192x2048 32) (lut : FVec F S8192x16 .f32) :
    FVec F S1x2048x8192 .f32 :=
  Host.dotGeneral dot_S1x2048x8192_S8192x8192_S1x2048x8192_2_1_01_0_n_n none x (taken lut (idx q))

end Cert.ReferenceIdeal.RefTerm

end
-- ==== Proof.RefRun.lean ====
/-
  The reference program's run: every weakly fair execution of its @main ends with the result buffer at the composed
  pure term of the three arguments (the stages of the term module), and the arguments unchanged.

  The program is one straight line of thirty-six operations once the called function's body is written at its call
  site. The line's effect on the buffers is a fold of the operations' results; the fold is read in four stretches, each
  over an arbitrary starting valuation, so that no stretch's term is ever compared at full size: the table index of
  every (o, k); the wrapped index with its trailing unit axis; the range test; the gather, the fill, the selection and
  the contraction. Composed, the four are the term module's result by its definition.
-/
import proofs.«414830_j5643587027570_3_alg».proof.ReferenceIdeal
import proofs.«414830_j5643587027570_3_alg».proof.Proof.Gen.ReferenceIdeal
import proofs.«414830_j5643587027570_3_alg».proof.Proof.RefTerm
import Idealize.ShloMosaic.Lib.StableHlo.Run
import Idealize.ShloMosaic.Lib.Tactic

noncomputable section

namespace Cert.ReferenceIdeal.RefRun

open Idealize.ShloMosaic Idealize.ShloMosaic.TcCoe Idealize.SL.Sem Idealize.ShloMosaic.StableHlo
open Cert.ReferenceIdeal

variable {F : FTy → Type} [FloatOps F] [Facts]
open Facts₀ Facts

/-! ## The program as one line -/

/-- The program's thirty-six operations in order: @main's first thirteen (the shift table, the packed words and the
    shifts broadcast to a common shape, the shift, the byte mask, the re-laying as a square array, the shift by four),
    then the called function's twenty-two written at the call site over the call's own buffers (its first argument the
    table, its second the index array, its last value the call's result), then the contraction. -/
abbrev ops : List (HloOp τ sig (Elt F)) :=
  [ nullary main_c (fun i => lit0 (S4.rowMajor i)),
    unary main_arg1 main_v0 (broadcastInDim S8192x2048x1 ![0, 1] bcast_S8192x2048_S8192x2048x1_0_1 : (⟨S8192x2048, .i32⟩ : BufTy).Contents (Elt F) → (⟨S8192x2048x1, .i32⟩ : BufTy).Contents (Elt F)),
    unary main_c main_v1 (broadcastInDim S1x1x4 ![2] bcast_S4_S1x1x4_2 : (⟨S4, .i32⟩ : BufTy).Contents (Elt F) → (⟨S1x1x4, .i32⟩ : BufTy).Contents (Elt F)),
    unary main_v0 main_v2 (broadcastInDim S8192x2048x4 ![0, 1, 2] bcast_S8192x2048x1_S8192x2048x4_0_1_2 : (⟨S8192x2048x1, .i32⟩ : BufTy).Contents (Elt F) → (⟨S8192x2048x4, .i32⟩ : BufTy).Contents (Elt F)),
    unary main_v1 main_v3 (broadcastInDim S8192x2048x4 ![0, 1, 2] bcast_S1x1x4_S8192x2048x4_0_1_2 : (⟨S1x1x4, .i32⟩ : BufTy).Contents (Elt F) → (⟨S8192x2048x4, .i32⟩ : BufTy).Contents (Elt F)),
    binary main_v2 main_v3 main_v4 (Host.shrsi : (⟨S8192x2048x4, .i32⟩ : BufTy).Contents (Elt F) → (⟨S8192x2048x4, .i32⟩ : BufTy).Contents (Elt F) → (⟨S8192x2048x4, .i32⟩ : BufTy).Contents (Elt F)),
    nullary main_c_0 (constantI S_ 32 255#32),
    unary main_c_0 main_v5 (broadcastInDim S8192x2048x4 ![] bcast_S_S8192x2048x4 : (⟨S_, .i32⟩ : BufTy).Contents (Elt F) → (⟨S8192x2048x4, .i32⟩ : BufTy).Contents (Elt F)),
    binary main_v4 main_v5 main_v6 (andi : (⟨S8192x2048x4, .i32⟩ : BufTy).Contents (Elt F) → (⟨S8192x2048x4, .i32⟩ : BufTy).Contents (Elt F) → (⟨S8192x2048x4, .i32⟩ : BufTy).Contents (Elt F)),
    reshape main_v6 main_v7 rfl shapeCasts_S8192x2048x4_S8192x8192,
    nullary main_c_1 (constantI S_ 32 4#32),
    unary main_c_1 main_v8 (broadcastInDim S8192x8192 ![] bcast_S_S8192x8192 : (⟨S_, .i32⟩ : BufTy).Contents (Elt F) → (⟨S8192x8192, .i32⟩ : BufTy).Contents (Elt F)),
    binary main_v7 main_v8 main_v9 (Host.shrsi : (⟨S8192x8192, .i32⟩ : BufTy).Contents (Elt F) → (⟨S8192x8192, .i32⟩ : BufTy).Contents (Elt F) → (⟨S8192x8192, .i32⟩ : BufTy).Contents (Elt F)),
    TRef.nullary main_call0.c (constantI S_ 32 0#32),
    TRef.unary main_call0.c main_call0.v0 (broadcastInDim S8192x8192 ![] bcast_S_S8192x8192),
    TRef.binary (.of main_v9 : TRef sig ⟨S8192x8192, .i32⟩) main_call0.v0 main_call0.v1 (cmpi .slt),
    TRef.nullary main_call0.c_0 (constantI S_ 32 16#32),
    TRef.unary main_call0.c_0 main_call0.v2 (broadcastInDim S8192x8192 ![] bcast_S_S8192x8192),
    TRef.binary (.of main_v9 : TRef sig ⟨S8192x8192, .i32⟩) main_call0.v2 main_call0.v3 addi,
    TRef.ternary main_call0.v1 main_call0.v3 (.of main_v9 : TRef sig ⟨S8192x8192, .i32⟩) main_call0.v4 select,
    TRef.reshape main_call0.v4 main_call0.v5 rfl shapeCasts_S8192x8192_S8192x8192x1,
    TRef.nullary main_call0.c_1 (constantI S1 32 15#32),
    TRef.nullary main_call0.c_2 (constantI S_ 32 0#32),
    TRef.unary main_call0.c_2 main_call0.v6 (broadcastInDim S8192x8192x1 ![] bcast_S_S8192x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x8192x1 ![0, 1, 2] bcast_S1x1x1_S8192x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x8192x1_S8192x8192_d2 h_S_),
    TRef.binary (.of main_arg2 : TRef sig ⟨S8192x16, .f32⟩) main_call0.v5 main_call0.v13 (fun x i => Host.gather gather_S8192x16_S8192x8192x1_S8192x8192_n_1_0_0_1_2_11 x i),
    TRef.nullary main_call0.cst (constant S_ .f32 0x7FC00000#32),
    TRef.unary main_call0.cst main_call0.v14 (broadcastInDim S8192x8192 ![] bcast_S_S8192x8192),
    TRef.ternary main_call0.v12 main_call0.v13 main_call0.v14 main_call0.v15 select,
    binary main_arg0 main_v10 main_v11 ((fun l r => Host.dotGeneral dot_S1x2048x8192_S8192x8192_S1x2048x8192_2_1_01_0_n_n none l r) : (⟨S1x2048x8192, .f32⟩ : BufTy).Contents (Elt F) → (⟨S8192x8192, .f32⟩ : BufTy).Contents (Elt F) → (⟨S1x2048x8192, .f32⟩ : BufTy).Contents (Elt F)) ]

-- a chain thirty-six steps deep: more levels than the default recursion bound admits
set_option maxRecDepth 1024 in
/-- The printed @main, with the call replaced by the called function's body over the call's own buffers, runs exactly
    the operations of `ops`, in their order. -/
theorem main_eq (c : Dev nD) : main (F := F) c = seq ops := by
  simp only [main, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub ..⟩

/-! ## The line in four stretches -/

/-- The first stretch, @main's thirteen operations before the call: it ends with the table index of every (o, k). -/
abbrev opsA : List (HloOp τ sig (Elt F)) :=
  [ nullary main_c (fun i => lit0 (S4.rowMajor i)),
    unary main_arg1 main_v0 (broadcastInDim S8192x2048x1 ![0, 1] bcast_S8192x2048_S8192x2048x1_0_1 : (⟨S8192x2048, .i32⟩ : BufTy).Contents (Elt F) → (⟨S8192x2048x1, .i32⟩ : BufTy).Contents (Elt F)),
    unary main_c main_v1 (broadcastInDim S1x1x4 ![2] bcast_S4_S1x1x4_2 : (⟨S4, .i32⟩ : BufTy).Contents (Elt F) → (⟨S1x1x4, .i32⟩ : BufTy).Contents (Elt F)),
    unary main_v0 main_v2 (broadcastInDim S8192x2048x4 ![0, 1, 2] bcast_S8192x2048x1_S8192x2048x4_0_1_2 : (⟨S8192x2048x1, .i32⟩ : BufTy).Contents (Elt F) → (⟨S8192x2048x4, .i32⟩ : BufTy).Contents (Elt F)),
    unary main_v1 main_v3 (broadcastInDim S8192x2048x4 ![0, 1, 2] bcast_S1x1x4_S8192x2048x4_0_1_2 : (⟨S1x1x4, .i32⟩ : BufTy).Contents (Elt F) → (⟨S8192x2048x4, .i32⟩ : BufTy).Contents (Elt F)),
    binary main_v2 main_v3 main_v4 (Host.shrsi : (⟨S8192x2048x4, .i32⟩ : BufTy).Contents (Elt F) → (⟨S8192x2048x4, .i32⟩ : BufTy).Contents (Elt F) → (⟨S8192x2048x4, .i32⟩ : BufTy).Contents (Elt F)),
    nullary main_c_0 (constantI S_ 32 255#32),
    unary main_c_0 main_v5 (broadcastInDim S8192x2048x4 ![] bcast_S_S8192x2048x4 : (⟨S_, .i32⟩ : BufTy).Contents (Elt F) → (⟨S8192x2048x4, .i32⟩ : BufTy).Contents (Elt F)),
    binary main_v4 main_v5 main_v6 (andi : (⟨S8192x2048x4, .i32⟩ : BufTy).Contents (Elt F) → (⟨S8192x2048x4, .i32⟩ : BufTy).Contents (Elt F) → (⟨S8192x2048x4, .i32⟩ : BufTy).Contents (Elt F)),
    reshape main_v6 main_v7 rfl shapeCasts_S8192x2048x4_S8192x8192,
    nullary main_c_1 (constantI S_ 32 4#32),
    unary main_c_1 main_v8 (broadcastInDim S8192x8192 ![] bcast_S_S8192x8192 : (⟨S_, .i32⟩ : BufTy).Contents (Elt F) → (⟨S8192x8192, .i32⟩ : BufTy).Contents (Elt F)),
    binary main_v7 main_v8 main_v9 (Host.shrsi : (⟨S8192x8192, .i32⟩ : BufTy).Contents (Elt F) → (⟨S8192x8192, .i32⟩ : BufTy).Contents (Elt F) → (⟨S8192x8192, .i32⟩ : BufTy).Contents (Elt F)) ]

/-- The second stretch, the called function's first eight: a negative index wrapped by the table's extent, then the
    trailing unit axis. -/
abbrev opsB : List (HloOp τ sig (Elt F)) :=
  [ TRef.nullary main_call0.c (constantI S_ 32 0#32),
    TRef.unary main_call0.c main_call0.v0 (broadcastInDim S8192x8192 ![] bcast_S_S8192x8192),
    TRef.binary (.of main_v9 : TRef sig ⟨S8192x8192, .i32⟩) main_call0.v0 main_call0.v1 (cmpi .slt),
    TRef.nullary main_call0.c_0 (constantI S_ 32 16#32),
    TRef.unary main_call0.c_0 main_call0.v2 (broadcastInDim S8192x8192 ![] bcast_S_S8192x8192),
    TRef.binary (.of main_v9 : TRef sig ⟨S8192x8192, .i32⟩) main_call0.v2 main_call0.v3 addi,
    TRef.ternary main_call0.v1 main_call0.v3 (.of main_v9 : TRef sig ⟨S8192x8192, .i32⟩) main_call0.v4 select,
    TRef.reshape main_call0.v4 main_call0.v5 rfl shapeCasts_S8192x8192_S8192x8192x1 ]

/-- The third stretch, the called function's next ten: the range test `0 ≤ w ≤ 15`, reduced over the unit axis. -/
abbrev opsC : List (HloOp τ sig (Elt F)) :=
  [ TRef.nullary main_call0.c_1 (constantI S1 32 15#32),
    TRef.nullary main_call0.c_2 (constantI S_ 32 0#32),
    TRef.unary main_call0.c_2 main_call0.v6 (broadcastInDim S8192x8192x1 ![] bcast_S_S8192x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x8192x1 ![0, 1, 2] bcast_S1x1x1_S8192x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x8192x1_S8192x8192_d2 h_S_) ]

/-- The last stretch: the gather along the table axis, the fill value, the selection, and the contraction. -/
abbrev opsD : List (HloOp τ sig (Elt F)) :=
  [ TRef.binary (.of main_arg2 : TRef sig ⟨S8192x16, .f32⟩) main_call0.v5 main_call0.v13 (fun x i => Host.gather gather_S8192x16_S8192x8192x1_S8192x8192_n_1_0_0_1_2_11 x i),
    TRef.nullary main_call0.cst (constant S_ .f32 0x7FC00000#32),
    TRef.unary main_call0.cst main_call0.v14 (broadcastInDim S8192x8192 ![] bcast_S_S8192x8192),
    TRef.ternary main_call0.v12 main_call0.v13 main_call0.v14 main_call0.v15 select,
    binary main_arg0 main_v10 main_v11 ((fun l r => Host.dotGeneral dot_S1x2048x8192_S8192x8192_S1x2048x8192_2_1_01_0_n_n none l r) : (⟨S1x2048x8192, .f32⟩ : BufTy).Contents (Elt F) → (⟨S8192x8192, .f32⟩ : BufTy).Contents (Elt F) → (⟨S1x2048x8192, .f32⟩ : BufTy).Contents (Elt F)) ]

/-- The line is its four stretches end to end. -/
theorem ops_split : (ops : List (HloOp τ sig (Elt F))) = opsA ++ (opsB ++ (opsC ++ opsD)) := rfl

/-- The fold over two lines end to end is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ### First stretch: the table index -/

/-- After the first stretch the index buffer holds the term module's `idx` of the packed words. -/
theorem stageA_v9 (V : Valuation τ sig (Elt F)) :
    after opsA V (main_v9 : DevRef τ sig) = RefTerm.idx (V (main_arg1 : DevRef τ sig)) := by
  after_results_simp
  rfl
theorem stageA_arg0 (V : Valuation τ sig (Elt F)) : after opsA V (main_arg0 : DevRef τ sig) = V (main_arg0 : DevRef τ sig) := by
  after_results_simp
theorem stageA_arg2 (V : Valuation τ sig (Elt F)) : after opsA V (main_arg2 : DevRef τ sig) = V (main_arg2 : DevRef τ sig) := by
  after_results_simp

/-! ### Second stretch: the wrapped index -/

/-- After the second stretch the reshaped buffer holds `wrapped` of the index buffer's contents (the typed references'
    transports are the identity at these literal references). -/
theorem stageB_v5 (V : Valuation τ sig (Elt F)) :
    after opsB V (main_call0_v5 : DevRef τ sig) = RefTerm.wrapped (V (main_v9 : DevRef τ sig)) := by
  after_results_simp
  simp only [TRef.toBuf, TRef.ofBuf, cast_eq]
  rfl
theorem stageB_arg0 (V : Valuation τ sig (Elt F)) : after opsB V (main_arg0 : DevRef τ sig) = V (main_arg0 : DevRef τ sig) := by
  after_results_simp
theorem stageB_arg2 (V : Valuation τ sig (Elt F)) : after opsB V (main_arg2 : DevRef τ sig) = V (main_arg2 : DevRef τ sig) := by
  after_results_simp

/-! ### Third stretch: the range test -/

/-- After the third stretch the reduced buffer holds `inRange` of the wrapped index, which the stretch leaves as it was. -/
theorem stageC_v12 (V : Valuation τ sig (Elt F)) :
    after opsC V (main_call0_v12 : DevRef τ sig) = RefTerm.inRange (V (main_call0_v5 : DevRef τ sig)) := by
  after_results_simp
  simp only [TRef.toBuf, TRef.ofBuf, cast_eq]
  rfl
theorem stageC_v5 (V : Valuation τ sig (Elt F)) : after opsC V (main_call0_v5 : DevRef τ sig) = V (main_call0_v5 : DevRef τ sig) := by
  after_results_simp
theorem stageC_arg0 (V : Valuation τ sig (Elt F)) : after opsC V (main_arg0 : DevRef τ sig) = V (main_arg0 : DevRef τ sig) := by
  after_results_simp
theorem stageC_arg2 (V : Valuation τ sig (Elt F)) : after opsC V (main_arg2 : DevRef τ sig) = V (main_arg2 : DevRef τ sig) := by
  after_results_simp

/-! ### Last stretch: gather, fill, selection, contraction -/

/-- After the last stretch the result buffer holds `x` contracted against the selection, by the range test, between
    the gathered table entries and the fill value. -/
theorem stageD_out (V : Valuation τ sig (Elt F)) :
    after opsD V (main_v11 : DevRef τ sig)
      = Host.dotGeneral dot_S1x2048x8192_S8192x8192_S1x2048x8192_2_1_01_0_n_n none (V (main_arg0 : DevRef τ sig))
          (select (V (main_call0_v12 : DevRef τ sig))
            (Host.gather gather_S8192x16_S8192x8192x1_S8192x8192_n_1_0_0_1_2_11 (V (main_arg2 : DevRef τ sig)) (V (main_call0_v5 : DevRef τ sig)))
            (broadcastInDim S8192x8192 ![] bcast_S_S8192x8192 (constant (F := F) S_ .f32 0x7FC00000#32))) := by
  after_results_simp
  simp only [TRef.toBuf, TRef.ofBuf, cast_eq]

/-! ## The whole line -/

/-- The fold of the whole line at the result buffer is the term module's result of the three arguments: the four
    stretches in turn, each read at the previous one's valuation, and then the definitions of `refTerm` and `taken`. -/
theorem out_eq (V : Valuation τ sig (Elt F)) :
    after ops V (main_v11 : DevRef τ sig)
      = RefTerm.refTerm (V (main_arg0 : DevRef τ sig)) (V (main_arg1 : DevRef τ sig)) (V (main_arg2 : DevRef τ sig)) := by
  rw [ops_split, after_append, after_append, after_append, stageD_out, stageC_v12, stageC_v5, stageC_arg0, stageC_arg2,
    stageB_v5, stageB_arg0, stageB_arg2, stageA_v9, stageA_arg0, stageA_arg2]
  rfl

/-- No operation of the line writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- From any memory with zero counters, the reference terminates without a fault, its result at the composed term of its
    arguments' launch contents and the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v11)
          = RefTerm.refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v11).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.Spec.lean ====
/-
  The function both programs compute, stated once over the three argument arrays.

  The packed weight matrix `q` (8192 × 2048 words) holds four 8-bit codes per word; input column `k` of output row `o`
  is code number `k % 4` of word `k / 4`, and only the TOP four bits of that code index the row's 16-entry table:
  bits `8·(k % 4) + 4 … 8·(k % 4) + 7` of the word (`nib`). The dequantised weight is `lut[o, nib]`, and the result is
  the plain matrix product `out[0, p, o] = ∑ₖ x[0, p, k] · lut[o, nib(q[o, k / 4], k % 4)]` over the extended reals.
-/
import Idealize.ShloMosaic.PureOps.Ideal
import Idealize.ShloMosaic.Lib.ValueIdx

noncomputable section

namespace Cert.Spec

open Idealize.ShloMosaic Idealize.ShloMosaic.ValueIdx
open scoped BigOperators

/-- Bits `8s + 4 … 8s + 7` of a packed word, as a word in `[0, 16)`: shift right by `8s + 4`, keep four bits. For
    `s < 4` every kept bit is a bit of `w` itself, so the sign extension of the arithmetic shift is never seen. -/
def nib (w : BitVec 32) (s : Nat) : BitVec 32 := (w.sshiftRight (8 * s + 4)) &&& 15#32

/-- A word masked to four bits is below 16. -/
theorem nib_lt (w : BitVec 32) (s : Nat) : (nib w s).toNat < 16 := by
  unfold nib
  rw [BitVec.toNat_and]
  exact Nat.lt_succ_of_le Nat.and_le_right

/-- The table entry that input column `k` of output row `o` selects. -/
def code (q : (⟨2, ![8192, 2048]⟩ : Shape).Idx → BitVec 32) (o k : Fin 8192) : Fin 16 :=
  ⟨(nib (q (ix2 o ⟨k.val / 4, by have := k.isLt; omega⟩)) (k.val % 4)).toNat, nib_lt _ _⟩

/-- The dequantised weight `W[o, k] = lut[o, code]`. -/
def wgt (q : (⟨2, ![8192, 2048]⟩ : Shape).Idx → BitVec 32) (lut : (⟨2, ![8192, 16]⟩ : Shape).Idx → EReal)
    (o k : Fin 8192) : EReal := lut (ix2 o (code q o k))

/-- One entry of the product: row `p` of `x` against row `o` of the dequantised weight. -/
def entry (x : (⟨3, ![1, 2048, 8192]⟩ : Shape).Idx → EReal) (q : (⟨2, ![8192, 2048]⟩ : Shape).Idx → BitVec 32)
    (lut : (⟨2, ![8192, 16]⟩ : Shape).Idx → EReal) (p : Fin 2048) (o : Fin 8192) : EReal :=
  ∑ k : Fin 8192, x (ix3 (0 : Fin 1) p k) * wgt q lut o k

/-- The whole result array `x · Wᵀ`, batch axis of extent 1 kept. -/
def G (x : (⟨3, ![1, 2048, 8192]⟩ : Shape).Idx → EReal) (q : (⟨2, ![8192, 2048]⟩ : Shape).Idx → BitVec 32)
    (lut : (⟨2, ![8192, 16]⟩ : Shape).Idx → EReal) : (⟨3, ![1, 2048, 8192]⟩ : Shape).Idx → EReal :=
  fun i => entry x q lut ⟨(i 1).val, (i 1).isLt⟩ ⟨(i 2).val, (i 2).isLt⟩

theorem G_apply (x : (⟨3, ![1, 2048, 8192]⟩ : Shape).Idx → EReal) (q : (⟨2, ![8192, 2048]⟩ : Shape).Idx → BitVec 32)
    (lut : (⟨2, ![8192, 16]⟩ : Shape).Idx → EReal) (b : Fin 1) (p : Fin 2048) (o : Fin 8192) :
    G x q lut (ix3 b p o) = entry x q lut p o := rfl

end Cert.Spec

end
-- ==== Proof.Algebra.lean ====
/-
  Pure facts about 32-bit words and finite sums that join the two programs' arithmetic.
-/
import proofs.«414830_j5643587027570_3_alg».proof.Proof.Spec
import Mathlib.Algebra.BigOperators.Fin
import Mathlib.Data.Fintype.BigOperators
import Mathlib.Tactic.FinCases

namespace Cert.Alg

open Cert.Spec
open scoped BigOperators

/-- Bit `j` of the word `255 = 2⁸ - 1` is set exactly for `j < 8`. -/
theorem getLsbD_255 (j : Nat) : (255#32).getLsbD j = decide (j < 8) := by
  rw [BitVec.getLsbD_ofNat, show (255 : Nat) = 2 ^ 8 - 1 by decide, Nat.testBit_two_pow_sub_one]
  by_cases h : j < 8
  · have : j < 32 := by omega
    simp [h, this]
  · simp [h]

/-- Bit `j` of the word `15 = 2⁴ - 1` is set exactly for `j < 4`. -/
theorem getLsbD_15 (j : Nat) : (15#32).getLsbD j = decide (j < 4) := by
  rw [BitVec.getLsbD_ofNat, show (15 : Nat) = 2 ^ 4 - 1 by decide, Nat.testBit_two_pow_sub_one]
  by_cases h : j < 4
  · have : j < 32 := by omega
    simp [h, this]
  · simp [h]

/-- The byte mask has a clear sign bit, so whatever it masks has one too. -/
theorem msb_255 : (255#32).msb = false := by decide

/-- Masking a byte out of a word and then dropping its low four bits keeps the same four bits as shifting by four
    more and masking to four bits: for `s < 4` both are bits `8s + 4 … 8s + 7` of `w`. -/
theorem nib_eq_ref (w : BitVec 32) (s : Nat) (hs : s < 4) :
    ((w.sshiftRight (8 * s)) &&& 255#32).sshiftRight 4 = nib w s := by
  unfold nib
  -- Compare bit by bit. Bit `i` of the left side is bit `4 + i` of the masked byte (zeros are shifted in, the
  -- masked word being non-negative); bit `i` of the right side is bit `i` of the shifted word under the mask 15.
  apply BitVec.eq_of_getLsbD_eq
  intro i hi
  rw [BitVec.getLsbD_sshiftRight, BitVec.getLsbD_and, BitVec.getLsbD_sshiftRight, BitVec.msb_and,
    BitVec.getLsbD_and, BitVec.getLsbD_sshiftRight, getLsbD_255, getLsbD_15, msb_255]
  by_cases h : i < 4
  · -- For `i < 4` every position read lies below 32 (`8s + 4 + i ≤ 31`), and both sides are bit `8s + 4 + i` of `w`.
    have h1 : 4 + i < 32 := by omega
    have h2 : 8 * s + (4 + i) < 32 := by omega
    have h3 : 8 * s + 4 + i < 32 := by omega
    have h4 : 8 * s + (4 + i) = 8 * s + 4 + i := by omega
    have h5 : 4 + i < 8 := by omega
    have h6 : ¬ 32 ≤ 4 + i := by omega
    have h7 : ¬ 32 ≤ i := by omega
    simp [h, h1, h2, h3, h4, h5, h6, h7]
  · -- For `i ≥ 4` the byte mask clears bit `4 + i ≥ 8` on the left and the mask 15 clears bit `i` on the right.
    have h5 : ¬ 4 + i < 8 := by omega
    simp [h, h5]

/-- Read signed, the four-bit field lies in `[0, 15]`. -/
theorem nib_toInt (w : BitVec 32) (s : Nat) : 0 ≤ (nib w s).toInt ∧ (nib w s).toInt ≤ 15 := by
  have h := nib_lt w s
  -- A word below 16 has a clear sign bit, so its signed and unsigned readings agree.
  have e : (nib w s).toInt = ((nib w s).toNat : Int) := BitVec.toInt_eq_toNat_of_lt (by omega)
  rw [e]
  omega

/-- A binary decision tree on bits 3, 2, 1, 0 of a word below 16 (outermost bit 3) picks the entry the word names. -/
theorem tree16 {α : Type} (v : BitVec 32) (hv : v.toNat < 16) (f : Fin 16 → α) :
    (if v &&& 8#32 ≠ 0#32 then
        (if v &&& 4#32 ≠ 0#32 then
          (if v &&& 2#32 ≠ 0#32 then (if v &&& 1#32 ≠ 0#32 then f 15 else f 14)
            else (if v &&& 1#32 ≠ 0#32 then f 13 else f 12))
        else
          (if v &&& 2#32 ≠ 0#32 then (if v &&& 1#32 ≠ 0#32 then f 11 else f 10)
            else (if v &&& 1#32 ≠ 0#32 then f 9 else f 8)))
      else
        (if v &&& 4#32 ≠ 0#32 then
          (if v &&& 2#32 ≠ 0#32 then (if v &&& 1#32 ≠ 0#32 then f 7 else f 6)
            else (if v &&& 1#32 ≠ 0#32 then f 5 else f 4))
        else
          (if v &&& 2#32 ≠ 0#32 then (if v &&& 1#32 ≠ 0#32 then f 3 else f 2)
            else (if v &&& 1#32 ≠ 0#32 then f 1 else f 0))))
      = f ⟨v.toNat, hv⟩ := by
  -- A word below 16 is one of the sixteen literals `0#32 … 15#32`; on each literal the four tests are decided.
  obtain ⟨n, rfl⟩ : ∃ n : Fin 16, v = BitVec.ofNat 32 n.val := ⟨⟨v.toNat, hv⟩, by simp⟩
  fin_cases n <;> simp <;> rfl

/-- The column `k = 4·(512·(j % 4) + g) + j / 4` as a bijection between (run, place in the run) and columns:
    from `k` the run is `j = 4·(k % 4) + (k / 4) / 512` and the place is `g = (k / 4) % 512`. -/
def regroupEquiv : Fin 16 × Fin 512 ≃ Fin 8192 where
  toFun p := ⟨4 * (512 * (p.1.val % 4) + p.2.val) + p.1.val / 4, by
    have := p.1.isLt; have := p.2.isLt; omega⟩
  invFun k := (⟨4 * (k.val % 4) + (k.val / 4) / 512, by have := k.isLt; omega⟩,
    ⟨(k.val / 4) % 512, by omega⟩)
  left_inv := by
    rintro ⟨⟨j, hj⟩, ⟨g, hg⟩⟩
    have h0 : (4 * (512 * (j % 4) + g) + j / 4) % 4 = j / 4 := by omega
    have h1 : (4 * (512 * (j % 4) + g) + j / 4) / 4 = 512 * (j % 4) + g := by omega
    have h2 : (512 * (j % 4) + g) / 512 = j % 4 := by omega
    have h3 : (512 * (j % 4) + g) % 512 = g := by omega
    simp only [Prod.mk.injEq, Fin.mk.injEq, h0, h1, h2, h3]
    constructor
    · omega
    · trivial
  right_inv := by
    rintro ⟨k, hk⟩
    simp only [Fin.mk.injEq]
    omega

/-- A sum over the 8192 input columns regrouped shift-major: sixteen runs `j` of 512 columns, run `j` taking the
    columns `k = 4·(512·(j % 4) + g) + j / 4` (byte number `j / 4` of the words `512·(j % 4) … + 511`). -/
theorem sum_regroup {M : Type*} [AddCommMonoid M] (f : Fin 8192 → M) :
    ∑ k : Fin 8192, f k
      = ∑ j : Fin 16, ∑ g : Fin 512,
          f ⟨4 * (512 * (j.val % 4) + g.val) + j.val / 4, by have := j.isLt; have := g.isLt; omega⟩ := by
  -- Reindex the sum along the bijection, then split the sum over pairs into an iterated sum.
  rw [← Equiv.sum_comp regroupEquiv f, Fintype.sum_prod_type]
  rfl

end Cert.Alg
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.RefValue.lean ====
/-
  The reference's composed term, read index by index over the extended reals, is the specification: the table index it
  computes is the four-bit field of the packed word, always inside the table, so its range test passes everywhere, the
  fill value is never selected, the gather reads `lut[o, field]`, and the contraction is the plain sum over the 8192
  input columns.
-/
import proofs.«414830_j5643587027570_3_alg».proof.Proof.RefTerm
import proofs.«414830_j5643587027570_3_alg».proof.Proof.Gen.ReferenceIdeal
import proofs.«414830_j5643587027570_3_alg».proof.Proof.Spec
import proofs.«414830_j5643587027570_3_alg».proof.Proof.Algebra
import proofs.«414830_j5643587027570_3_alg».proof.Proof.LibMask
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal
open scoped BigOperators

variable [Facts]
open Facts₀ Facts

/-! ## Stage 1: the table index is the four-bit field -/

/-- The shift table read at its coordinate is the listed word. -/
theorem shifts_apply (s : Fin 4) : RefTerm.shifts (ix1 s) = lit0 s := by
  show lit0 (S4.rowMajor (ix1 s)) = lit0 s
  congr 1
  exact Fin.ext (Shape.rowMajor_val_one _)

/-- The listed shifts are 0, 8, 16, 24: eight times the byte number. -/
theorem lit0_toNat (s : Fin 4) : (lit0 s).toNat = 8 * s.val := by
  fin_cases s <;> rfl

/-- The packed words spread over the trailing axis of four read, at `(o, g, s)`, the word `q[o, g]`. -/
theorem bq_apply (q : IVec S8192x2048 32) (o : Fin 8192) (g : Fin 2048) (s : Fin 4) :
    broadcastInDim S8192x2048x4 ![0, 1, 2] bcast_S8192x2048x1_S8192x2048x4_0_1_2
        (broadcastInDim S8192x2048x1 ![0, 1] bcast_S8192x2048_S8192x2048x1_0_1 q) (ix3 o g s) = q (ix2 o g) := by
  refine (broadcastInDim_apply _ _ _ (ix3 o g s) (ix3 o g (0 : Fin 1)) fun a => ?_).trans ?_
  · match a with
    | ⟨0, _⟩ => rfl
    | ⟨1, _⟩ => rfl
    | ⟨2, _⟩ => rfl
  · refine broadcastInDim_apply _ _ _ (ix3 o g (0 : Fin 1)) (ix2 o g) fun a => ?_
    match a with
    | ⟨0, _⟩ => rfl
    | ⟨1, _⟩ => rfl

/-- The shift table spread over the rows and words reads, at `(o, g, s)`, shift number `s`. -/
theorem bs_apply (o : Fin 8192) (g : Fin 2048) (s : Fin 4) :
    broadcastInDim S8192x2048x4 ![0, 1, 2] bcast_S1x1x4_S8192x2048x4_0_1_2
        (broadcastInDim S1x1x4 ![2] bcast_S4_S1x1x4_2 RefTerm.shifts) (ix3 o g s) = lit0 s := by
  refine (broadcastInDim_apply _ _ _ (ix3 o g s) (ix3 (0 : Fin 1) (0 : Fin 1) s) fun a => ?_).trans ?_
  · match a with
    | ⟨0, _⟩ => rfl
    | ⟨1, _⟩ => rfl
    | ⟨2, _⟩ => rfl
  · refine (broadcastInDim_apply _ _ _ (ix3 (0 : Fin 1) (0 : Fin 1) s) (ix1 s) fun a => ?_).trans (shifts_apply s)
    match a with
    | ⟨0, _⟩ => rfl

/-- The host's arithmetic right shift by an amount below the width is the bit-vector one by that many places. -/
theorem shrsi_host (x y : BitVec 32) (h : y.toNat < 32) : IntOp.shrsi .host x y = x.sshiftRight y.toNat := by
  unfold IntOp.shrsi
  rw [if_pos h]
  rfl

/-- The 8-bit code at `(o, g, s)`: byte number `s` of the word `q[o, g]`. -/
theorem codes3_apply (q : IVec S8192x2048 32) (o : Fin 8192) (g : Fin 2048) (s : Fin 4) :
    RefTerm.codes3 q (ix3 o g s) = (q (ix2 o g)).sshiftRight (8 * s.val) &&& 255#32 := by
  unfold RefTerm.codes3
  show IntOp.andi (IntOp.shrsi .host _ _) 255#32 = _
  rw [bq_apply, bs_apply, shrsi_host _ _ (by rw [lit0_toNat]; have := s.isLt; omega), lit0_toNat]
  rfl

/-- The table index at `(o, k)`: the codes re-laid row-major put `(o, g, s)` at column `k = 4g + s`, and the top four
    bits of byte `k % 4` of word `k / 4` are the specification's four-bit field. -/
theorem idx_apply (q : IVec S8192x2048 32) (o k : Fin 8192) :
    RefTerm.idx q (ix2 o k)
      = Cert.Spec.nib (q (ix2 o ⟨k.val / 4, by have := k.isLt; omega⟩)) (k.val % 4) := by
  unfold RefTerm.idx
  show IntOp.shrsi .host (shapeCast S8192x8192 (RefTerm.codes3 q) shapeCasts_S8192x2048x4_S8192x8192 (ix2 o k)) 4#32 = _
  rw [shapeCast_apply (RefTerm.codes3 q) shapeCasts_S8192x2048x4_S8192x8192 (ix2 o k)
      (ix3 o (⟨k.val / 4, by have := k.isLt; omega⟩ : Fin 2048) (⟨k.val % 4, Nat.mod_lt _ (by decide)⟩ : Fin 4)) (by
        rw [Shape.rowMajor_val_three, Shape.rowMajor_val_two]
        show (o.val * 2048 + k.val / 4) * 4 + k.val % 4 = o.val * 8192 + k.val
        omega),
    codes3_apply, shrsi_host _ _ (by decide)]
  exact Cert.Alg.nib_eq_ref _ _ (Nat.mod_lt _ (by decide))

/-- Every table index lies in `[0, 15]`, read signed. -/
theorem idx_range (q : IVec S8192x2048 32) (i : S8192x8192.Idx) :
    0 ≤ (RefTerm.idx q i).toInt ∧ (RefTerm.idx q i).toInt ≤ 15 := by
  obtain ⟨o, k, rfl⟩ : ∃ (o k : Fin 8192), i = ix2 o k := ⟨i 0, i 1, eq_ix2 i⟩
  rw [idx_apply]
  exact Cert.Alg.nib_toInt _ _

/-! ## Stage 2: on indices in `[0, 15]` the fill-mode take is the plain gather -/

/-- No index is negative, so the wrap changes nothing: the wrapped indices are the indices with a trailing unit axis. -/
theorem wrapped_eq (a : IVec S8192x8192 32) (ha : ∀ i, 0 ≤ (a i).toInt ∧ (a i).toInt ≤ 15) :
    RefTerm.wrapped a = shapeCast S8192x8192x1 a shapeCasts_S8192x8192_S8192x8192x1 := by
  unfold RefTerm.wrapped
  rw [Cert.MaskLib.wrap_id a (broadcastInDim S8192x8192 ![] bcast_S_S8192x8192 (constantI S_ 32 0#32))
    (addi a (broadcastInDim S8192x8192 ![] bcast_S_S8192x8192 (constantI S_ 32 16#32))) (fun _ => rfl) (fun i => (ha i).1)]

/-- The wrapped indices at `(o, k, 0)` are the indices at `(o, k)`. -/
theorem wrapped_apply (a : IVec S8192x8192 32) (ha : ∀ i, 0 ≤ (a i).toInt ∧ (a i).toInt ≤ 15) (o k : Fin 8192) (u : Fin 1) :
    RefTerm.wrapped a (ix3 o k u) = a (ix2 o k) := by
  rw [wrapped_eq a ha]
  exact shapeCast_apply a _ (ix3 o k u) (ix2 o k) (by
    rw [Shape.rowMajor_val_three, Shape.rowMajor_val_two]
    show o.val * 8192 + k.val = (o.val * 8192 + k.val) * 1 + u.val
    omega)

/-- So the wrapped indices lie in `[0, 15]` too. -/
theorem wrapped_range (a : IVec S8192x8192 32) (ha : ∀ i, 0 ≤ (a i).toInt ∧ (a i).toInt ≤ 15) (i : S8192x8192x1.Idx) :
    0 ≤ (RefTerm.wrapped a i).toInt ∧ (RefTerm.wrapped a i).toInt ≤ 15 := by
  obtain ⟨o, k, u, rfl⟩ : ∃ (o k : Fin 8192) (u : Fin 1), i = ix3 o k u := ⟨i 0, i 1, i 2, eq_ix3 i⟩
  rw [wrapped_apply a ha]
  exact ha _

/-- The range test passes everywhere: both compares hold at every position, and their conjunction over the unit axis,
    started at one, is one. -/
theorem inRange_eq (w : IVec S8192x8192x1 32) (hw : ∀ i, 0 ≤ (w i).toInt ∧ (w i).toInt ≤ 15) :
    RefTerm.inRange w = fun _ => 1#1 := by
  unfold RefTerm.inRange
  rw [Cert.MaskLib.inrange_and w (broadcastInDim S8192x8192x1 ![] bcast_S_S8192x8192x1 (constantI S_ 32 0#32))
    (broadcastInDim S8192x8192x1 ![0, 1, 2] bcast_S1x1x1_S8192x8192x1_0_1_2
        (broadcastInDim S1x1x1 ![2] bcast_S1_S1x1x1_2 (constantI S1 32 15#32))) 15 (fun _ => rfl)
    (fun _ => (by decide : (15#32 : BitVec 32).toInt = 15)) hw]
  exact Cert.MaskLib.reduce_and_ones _ _ _ _ (fun _ => rfl) (fun _ => rfl)

/-- So the fill value is never selected: the gathered weight is the gather itself. -/
theorem taken_eq (lut : FVec Ideal S8192x16 .f32) (a : IVec S8192x8192 32) (ha : ∀ i, 0 ≤ (a i).toInt ∧ (a i).toInt ≤ 15) :
    RefTerm.taken (F := Ideal) lut a
      = Host.gather gather_S8192x16_S8192x8192x1_S8192x8192_n_1_0_0_1_2_11 lut (RefTerm.wrapped a) := by
  unfold RefTerm.taken
  exact Cert.MaskLib.select_of_ones _ _ _ (fun i => congrFun (inRange_eq _ (wrapped_range a ha)) i)

/-! ## Stage 3: the gather along the table axis, read at an index

The table's row axis is a batch axis and reads the result's row `o`; the table's column axis is collapsed and reads the
start index at `(o, k, 0)`, read signed and clamped into `[0, 15]`. -/

/-- On the row axis the start is zero (a batch axis is in no start index map). -/
theorem g_start0 {w : Nat} (j : S8192x8192.Idx) (v : IVec S8192x8192x1 w) :
    gather_S8192x16_S8192x8192x1_S8192x8192_n_1_0_0_1_2_11.start j v 0 = 0 :=
  gather_S8192x16_S8192x8192x1_S8192x8192_n_1_0_0_1_2_11.start_batching j v 0 (List.mem_singleton.mpr rfl)

/-- On the row axis the offset coordinate is zero (a batch axis is not kept). -/
theorem g_off0 (j : S8192x8192.Idx) : gather_S8192x16_S8192x8192x1_S8192x8192_n_1_0_0_1_2_11.offCoord j 0 = 0 :=
  gather_S8192x16_S8192x8192x1_S8192x8192_n_1_0_0_1_2_11.offCoord_eq_zero j 0 (fun h => ((gather_S8192x16_S8192x8192x1_S8192x8192_n_1_0_0_1_2_11.mem_sKept 0).1 h).2 (List.mem_singleton.mpr rfl))

/-- On the row axis the batch coordinate is the result's row. -/
theorem g_batch0 (o k : Fin 8192) : gather_S8192x16_S8192x8192x1_S8192x8192_n_1_0_0_1_2_11.batchCoord (ix2 o k) 0 = o.val := by
  unfold GatherDims.batchCoord
  rw [dif_pos (show (0 : Fin 2) ∈ gather_S8192x16_S8192x8192x1_S8192x8192_n_1_0_0_1_2_11.operandBatchingDims from List.mem_singleton.mpr rfl)]
  rfl

/-- On the column axis the batch coordinate is zero (not a batch axis). -/
theorem g_batch1 (j : S8192x8192.Idx) : gather_S8192x16_S8192x8192x1_S8192x8192_n_1_0_0_1_2_11.batchCoord j 1 = 0 :=
  gather_S8192x16_S8192x8192x1_S8192x8192_n_1_0_0_1_2_11.batchCoord_eq_zero j 1 (show (1 : Fin 2) ∉ [(0 : Fin 2)] by decide)

/-- On the column axis the offset coordinate is zero (a collapsed axis is not kept). -/
theorem g_off1 (j : S8192x8192.Idx) : gather_S8192x16_S8192x8192x1_S8192x8192_n_1_0_0_1_2_11.offCoord j 1 = 0 :=
  gather_S8192x16_S8192x8192x1_S8192x8192_n_1_0_0_1_2_11.offCoord_eq_zero j 1 (fun h => ((gather_S8192x16_S8192x8192x1_S8192x8192_n_1_0_0_1_2_11.mem_sKept 1).1 h).1 (List.mem_singleton.mpr rfl))

/-- On the column axis the start is the start index at `(o, k, 0)`, read signed and clamped to `16 − 1`. -/
theorem g_start1 {w : Nat} (o k : Fin 8192) (v : IVec S8192x8192x1 w) :
    gather_S8192x16_S8192x8192x1_S8192x8192_n_1_0_0_1_2_11.start (ix2 o k) v 1 = min (v (ix3 o k (0 : Fin 1))).toInt.toNat 15 := by
  unfold GatherDims.start
  rw [dif_pos (show (1 : Fin 2) ∈ gather_S8192x16_S8192x8192x1_S8192x8192_n_1_0_0_1_2_11.startIndexMap from List.mem_singleton.mpr rfl)]
  have hsi : gather_S8192x16_S8192x8192x1_S8192x8192_n_1_0_0_1_2_11.siIdx (ix2 o k) ⟨List.idxOf (1 : Fin 2) gather_S8192x16_S8192x8192x1_S8192x8192_n_1_0_0_1_2_11.startIndexMap,
      List.idxOf_lt_length_iff.2 (List.mem_singleton.mpr rfl)⟩ = ix3 o k (0 : Fin 1) := by
    funext b; refine Fin.ext ?_
    match b with
    | ⟨0, _⟩ => rfl
    | ⟨1, _⟩ => rfl
    | ⟨2, _⟩ => rfl
  rw [hsi]
  rfl

/-- The gather read at `(o, k)`: row `o` of the table at the clamped start index. -/
theorem gather_apply {α : Type} (lut : S8192x16.Idx → α) (w : IVec S8192x8192x1 32) (o k : Fin 8192) :
    Host.gather gather_S8192x16_S8192x8192x1_S8192x8192_n_1_0_0_1_2_11 lut w (ix2 o k)
      = lut (ix2 o (⟨min (w (ix3 o k (0 : Fin 1))).toInt.toNat 15, by omega⟩ : Fin 16)) := by
  unfold Host.gather
  congr 1
  funext a
  refine Fin.ext ?_
  show gather_S8192x16_S8192x8192x1_S8192x8192_n_1_0_0_1_2_11.start (ix2 o k) w a + gather_S8192x16_S8192x8192x1_S8192x8192_n_1_0_0_1_2_11.batchCoord (ix2 o k) a + gather_S8192x16_S8192x8192x1_S8192x8192_n_1_0_0_1_2_11.offCoord (ix2 o k) a = _
  match a with
  | ⟨0, _⟩ =>
    show gather_S8192x16_S8192x8192x1_S8192x8192_n_1_0_0_1_2_11.start (ix2 o k) w 0 + gather_S8192x16_S8192x8192x1_S8192x8192_n_1_0_0_1_2_11.batchCoord (ix2 o k) 0 + gather_S8192x16_S8192x8192x1_S8192x8192_n_1_0_0_1_2_11.offCoord (ix2 o k) 0 = o.val
    rw [g_start0, g_batch0, g_off0, Nat.zero_add, Nat.add_zero]
  | ⟨1, _⟩ =>
    show gather_S8192x16_S8192x8192x1_S8192x8192_n_1_0_0_1_2_11.start (ix2 o k) w 1 + gather_S8192x16_S8192x8192x1_S8192x8192_n_1_0_0_1_2_11.batchCoord (ix2 o k) 1 + gather_S8192x16_S8192x8192x1_S8192x8192_n_1_0_0_1_2_11.offCoord (ix2 o k) 1
      = min (w (ix3 o k (0 : Fin 1))).toInt.toNat 15
    rw [g_start1, g_batch1, g_off1, Nat.add_zero]

/-- The gather at an index whose start index is a known word below 16: the clamp does nothing, and the signed reading
    of such a word is the word. -/
theorem gather_in_range {α : Type} (lut : S8192x16.Idx → α) (w : IVec S8192x8192x1 32) (o k : Fin 8192) (v : BitVec 32)
    (hv : w (ix3 o k (0 : Fin 1)) = v) (h16 : v.toNat < 16) :
    Host.gather gather_S8192x16_S8192x8192x1_S8192x8192_n_1_0_0_1_2_11 lut w (ix2 o k) = lut (ix2 o (⟨v.toNat, h16⟩ : Fin 16)) := by
  rw [gather_apply lut w o k]
  refine congrArg (fun c : Fin 16 => lut (ix2 o c)) (Fin.ext ?_)
  show min (w (ix3 o k (0 : Fin 1))).toInt.toNat 15 = v.toNat
  rw [hv, BitVec.toInt_eq_toNat_cond]
  have h2 : 2 * v.toNat < 2 ^ 32 := by omega
  rw [if_pos h2]
  omega

/-- The gathered weight at `(o, k)` is the specification's dequantised weight `lut[o, code]`. -/
theorem taken_apply (lut : FVec Ideal S8192x16 .f32) (q : IVec S8192x2048 32) (o k : Fin 8192) :
    RefTerm.taken (F := Ideal) lut (RefTerm.idx q) (ix2 o k) = Cert.Spec.wgt q lut o k := by
  rw [taken_eq lut (RefTerm.idx q) (idx_range q)]
  exact gather_in_range lut (RefTerm.wrapped (RefTerm.idx q)) o k _
    ((wrapped_apply (RefTerm.idx q) (idx_range q) o k 0).trans (idx_apply q o k)) (Cert.Spec.nib_lt _ _)

/-! ## Stage 4: the contraction, read at an index

The left operand reads the result's first two coordinates and the contraction coordinate on its last axis; the right
operand reads the result's last coordinate on its first axis and the contraction coordinate on its last. -/

theorem lhs_0 (j : S1x2048x8192.Idx) (k : dot_S1x2048x8192_S8192x8192_S1x2048x8192_2_1_01_0_n_n.contr.Idx) : (dot_S1x2048x8192_S8192x8192_S1x2048x8192_2_1_01_0_n_n.lhsIdx j k 0).val = (j 0).val := by
  unfold DotDims.lhsIdx
  rw [dif_neg (show ¬(0 : Fin 3) ∈ dot_S1x2048x8192_S8192x8192_S1x2048x8192_2_1_01_0_n_n.lhsBatch from List.not_mem_nil),
    dif_pos (show (0 : Fin 3) ∈ dot_S1x2048x8192_S8192x8192_S1x2048x8192_2_1_01_0_n_n.lhsNonContracting from (by decide : (0 : Fin 3) ∈ [(0 : Fin 3), 1]))]
  rfl

theorem lhs_1 (j : S1x2048x8192.Idx) (k : dot_S1x2048x8192_S8192x8192_S1x2048x8192_2_1_01_0_n_n.contr.Idx) : (dot_S1x2048x8192_S8192x8192_S1x2048x8192_2_1_01_0_n_n.lhsIdx j k 1).val = (j 1).val := by
  unfold DotDims.lhsIdx
  rw [dif_neg (show ¬(1 : Fin 3) ∈ dot_S1x2048x8192_S8192x8192_S1x2048x8192_2_1_01_0_n_n.lhsBatch from List.not_mem_nil),
    dif_pos (show (1 : Fin 3) ∈ dot_S1x2048x8192_S8192x8192_S1x2048x8192_2_1_01_0_n_n.lhsNonContracting from (by decide : (1 : Fin 3) ∈ [(0 : Fin 3), 1]))]
  rfl

theorem lhs_2 (j : S1x2048x8192.Idx) (k : dot_S1x2048x8192_S8192x8192_S1x2048x8192_2_1_01_0_n_n.contr.Idx) :
    (dot_S1x2048x8192_S8192x8192_S1x2048x8192_2_1_01_0_n_n.lhsIdx j k 2).val = (k ⟨0, by decide⟩).val :=
  dot_S1x2048x8192_S8192x8192_S1x2048x8192_2_1_01_0_n_n.lhsIdx_val_of_single (cl := 2) rfl j k

theorem rhs_0 (j : S1x2048x8192.Idx) (k : dot_S1x2048x8192_S8192x8192_S1x2048x8192_2_1_01_0_n_n.contr.Idx) : (dot_S1x2048x8192_S8192x8192_S1x2048x8192_2_1_01_0_n_n.rhsIdx j k 0).val = (j 2).val := by
  unfold DotDims.rhsIdx
  rw [dif_neg (show ¬(0 : Fin 2) ∈ dot_S1x2048x8192_S8192x8192_S1x2048x8192_2_1_01_0_n_n.rhsBatch from List.not_mem_nil),
    dif_pos (show (0 : Fin 2) ∈ dot_S1x2048x8192_S8192x8192_S1x2048x8192_2_1_01_0_n_n.rhsNonContracting from List.mem_singleton.mpr rfl)]
  rfl

theorem rhs_1 (j : S1x2048x8192.Idx) (k : dot_S1x2048x8192_S8192x8192_S1x2048x8192_2_1_01_0_n_n.contr.Idx) :
    (dot_S1x2048x8192_S8192x8192_S1x2048x8192_2_1_01_0_n_n.rhsIdx j k 1).val = (k ⟨0, by decide⟩).val :=
  dot_S1x2048x8192_S8192x8192_S1x2048x8192_2_1_01_0_n_n.rhsIdx_val_of_single (cr := 1) rfl j k

/-- The contraction read at `(b, p, o)`: the plain sum over the 8192 input columns of `x[0, p, k] · w[o, k]` (the sum
    over the one-axis contraction index re-indexed by its coordinate). -/
theorem dot_apply (x : FVec Ideal S1x2048x8192 .f32) (w : FVec Ideal S8192x8192 .f32) (b : Fin 1) (p : Fin 2048) (o : Fin 8192) :
    Host.dotGeneral (F := Ideal) dot_S1x2048x8192_S8192x8192_S1x2048x8192_2_1_01_0_n_n none x w (ix3 b p o)
      = ∑ k : Fin 8192, x (ix3 (0 : Fin 1) p k) * w (ix2 o k) := by
  show FloatOps.dotGeneral _ none _ x w (ix3 b p o) = _
  rw [Ideal.dotGeneral_apply, ← Equiv.sum_comp (contrEquiv1 dot_S1x2048x8192_S8192x8192_S1x2048x8192_2_1_01_0_n_n 8192 rfl rfl).symm]
  refine Finset.sum_congr rfl fun c _ => ?_
  have c3 := contrEquiv1_symm_val dot_S1x2048x8192_S8192x8192_S1x2048x8192_2_1_01_0_n_n 8192 rfl rfl c
  have l3 : dot_S1x2048x8192_S8192x8192_S1x2048x8192_2_1_01_0_n_n.lhsIdx (ix3 b p o) ((contrEquiv1 dot_S1x2048x8192_S8192x8192_S1x2048x8192_2_1_01_0_n_n 8192 rfl rfl).symm c) = ix3 (0 : Fin 1) p c := by
    funext ax; apply Fin.ext
    match ax with
    | ⟨0, _⟩ => exact (lhs_0 _ _).trans (by show b.val = 0; omega)
    | ⟨1, _⟩ => exact lhs_1 _ _
    | ⟨2, _⟩ => exact (lhs_2 _ _).trans c3
  have r3 : dot_S1x2048x8192_S8192x8192_S1x2048x8192_2_1_01_0_n_n.rhsIdx (ix3 b p o) ((contrEquiv1 dot_S1x2048x8192_S8192x8192_S1x2048x8192_2_1_01_0_n_n 8192 rfl rfl).symm c) = ix2 o c := by
    funext ax; apply Fin.ext
    match ax with
    | ⟨0, _⟩ => exact rhs_0 _ _
    | ⟨1, _⟩ => exact (rhs_1 _ _).trans c3
  rw [l3, r3]

/-! ## The reference's term is the specification -/

/-- The reference's result term IS the specification. -/
theorem refTerm_eq (x : FVec Ideal S1x2048x8192 .f32) (q : IVec S8192x2048 32) (lut : FVec Ideal S8192x16 .f32) :
    RefTerm.refTerm (F := Ideal) x q lut = Cert.Spec.G x q lut := by
  funext i
  obtain ⟨b, p, o, rfl⟩ : ∃ (b : Fin 1) (p : Fin 2048) (o : Fin 8192), i = ix3 b p o := ⟨i 0, i 1, i 2, eq_ix3 i⟩
  rw [Cert.Spec.G_apply]
  unfold RefTerm.refTerm Cert.Spec.entry
  rw [dot_apply]
  exact Finset.sum_congr rfl fun k _ => by rw [taken_apply]

end Cert.ReferenceIdeal.RefValue

end
-- ==== Proof.KBlock.lean ====
/-
  What one grid point of the kernel leaves in its output block, entry by entry, over the extended reals.

  The body walks sixteen runs `j` of 512 columns. Run `j` takes columns `512·(j % 4) … + 511` of the point's 256 × 2048
  block of packed words, extracts byte number `j / 4`'s top four bits of each word, looks them up in the row's
  16-entry table by a four-level binary selection, and multiplies the resulting 256 × 512 tile against columns
  `512·j … + 511` of the shift-major copy of `x` held in scratch, contracting the 512 columns; the sixteen products are
  added up. So entry `(p, r)` of the block is the double sum below.
-/
import proofs.«414830_j5643587027570_3_alg».proof.Proof.Gen.KernelIdeal.Frame
import proofs.«414830_j5643587027570_3_alg».proof.Proof.Spec
import proofs.«414830_j5643587027570_3_alg».proof.Proof.Algebra
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws
import Idealize.ShloMosaic.Lib.Tactic

set_option maxRecDepth 16384

noncomputable section

namespace Cert.KernelIdeal.KBlock

open Idealize.ShloMosaic Idealize.ShloMosaic.TcCoe Idealize.SL.Sem Idealize.ShloMosaic.ValueIdx
open Cert.KernelIdeal Cert.KernelIdeal.Gen
open scoped BigOperators

/-- Entry `(p, r)` of the block a grid point computes from the scratch copy `xs` of the permuted `x`, the point's block
    `qb` of packed words and its block `lb` of table rows. -/
def blockAt (xs : S2048x8192.Idx → EReal) (qb : S256x2048.Idx → BitVec 32) (lb : S256x16.Idx → EReal)
    (p : Fin 2048) (r : Fin 256) : EReal :=
  ∑ j : Fin 16, ∑ g : Fin 512,
    xs (ix2 p ⟨512 * j.val + g.val, by have := j.isLt; have := g.isLt; omega⟩)
      * lb (ix2 r ⟨(Cert.Spec.nib (qb (ix2 r ⟨512 * (j.val % 4) + g.val, by have := j.isLt; have := g.isLt; omega⟩)) (j.val / 4)).toNat,
          Cert.Spec.nib_lt _ _⟩)

/-- The zero offsets of a rank-2 rectangle, as a constant function. -/
theorem hz : (![0, 0] : Fin 2 → Nat) = fun _ => 0 := funext fun a => by fin_cases a <;> rfl

/-! ## Reading a rectangle of a whole buffer at an index -/

/-- A unit-stride rectangle of a rank-2 shape that starts at row 0 places `(a, b)` at `(a, o + b)`. -/
theorem idx_unit2 {n0 n1 : Nat} (o m0 m1 : Nat) (inb : ∀ a, (![0, o] : Fin 2 → Nat) a + (![m0, m1] : Fin 2 → Nat) a ≤ (⟨2, ![n0, n1]⟩ : Shape).size a)
    (a : Fin m0) (b : Fin m1) :
    (Rect.unit (s := ⟨2, ![n0, n1]⟩) ![0, o] ![m0, m1] inb).toLoadRect.idx (ix2 a b)
      = ix2 ⟨a.val, by have h : 0 + m0 ≤ n0 := inb 0; have := a.isLt; omega⟩ ⟨o + b.val, by have h : o + m1 ≤ n1 := inb 1; have := b.isLt; omega⟩ := by
  funext d
  match d with
  | ⟨0, _⟩ => exact Fin.ext (by show 0 + 1 * a.val = a.val; omega)
  | ⟨1, _⟩ => exact Fin.ext (by show o + 1 * b.val = o + b.val; omega)

/-- A load of such a rectangle through a whole buffer held at contents that read `X`, at `(a, b)`. -/
theorem ld2 {sig : RefSig} {κ : Kind} {sp : Space} {e : EltTy} {Val : EltTy → Type} {n0 n1 : Nat}
    (m : Memref sig κ sp ⟨2, ![n0, n1]⟩ e) (h : m.IsWhole) (X : (⟨2, ![n0, n1]⟩ : Shape).Idx → Val e)
    (o m0 m1 : Nat) (inb : ∀ a, (![0, o] : Fin 2 → Nat) a + (![m0, m1] : Fin 2 → Nat) a ≤ (⟨2, ![n0, n1]⟩ : Shape).size a)
    (a : Fin m0) (b : Fin m1) :
    View.readAt Val m.view (Rect.unit (s := ⟨2, ![n0, n1]⟩) ![0, o] ![m0, m1] inb).toLoadRect (h.unread X) (ix2 a b)
      = X (ix2 ⟨a.val, by have h : 0 + m0 ≤ n0 := inb 0; have := a.isLt; omega⟩ ⟨o + b.val, by have h : o + m1 ≤ n1 := inb 1; have := b.isLt; omega⟩) :=
  (Memref.IsWhole.readAt_unread (Val := Val) h X (Rect.unit (s := ⟨2, ![n0, n1]⟩) ![0, o] ![m0, m1] inb).toLoadRect (ix2 a b)).trans
    (congrArg X (idx_unit2 o m0 m1 inb a b))

/-! ## The integer vector operations at an index -/

/-- Comparison, bitwise and, and arithmetic right shift of integer vectors act element by element. -/
theorem cmpi_apply {s : Shape} {w : Nat} (p : CmpIPredicate) (x y : IVec s w) (i : s.Idx) : cmpi p x y i = IntOp.cmpi p (x i) (y i) := rfl
theorem andi_apply {s : Shape} {w : Nat} (x y : IVec s w) (i : s.Idx) : andi x y i = IntOp.andi (x i) (y i) := rfl
theorem shrsi_apply {s : Shape} {w : Nat} (x y : IVec s w) (i : s.Idx) : shrsi x y i = IntOp.shrsi .vector (x i) (y i) := rfl

/-- Column `k` of the loaded table block, spread over the 512 columns of a run, reads the table's entry `(r, k)`. -/
theorem col_apply {sig : RefSig} {κ : Kind} {sp : Space} (m : Memref sig κ sp ⟨2, ![256, 16]⟩ .f32) (h : m.IsWhole)
    (X : (⟨2, ![256, 16]⟩ : Shape).Idx → EReal)
    (inb : ∀ a, (![0, 0] : Fin 2 → Nat) a + (![256, 16] : Fin 2 → Nat) a ≤ (⟨2, ![256, 16]⟩ : Shape).size a)
    (k : Nat)
    (hs : (⟨2, ![256, 16]⟩ : Shape).Slices ![0, k] ⟨2, ![256, 1]⟩) (hc : (⟨2, ![256, 1]⟩ : Shape).ShapeCasts ⟨2, ![256, 1]⟩)
    (hb : (⟨2, ![256, 1]⟩ : Shape).Broadcasts ⟨2, ![256, 512]⟩) (r : Fin 256) (g : Fin 512) :
    broadcastTo (α := EReal) ⟨2, ![256, 512]⟩ (shapeCast (α := EReal) ⟨2, ![256, 1]⟩ (extractStridedSlice (α := EReal) (s := ⟨2, ![256, 16]⟩) ⟨2, ![256, 1]⟩ ![0, k]
        (View.readAt (Elt Ideal) m.view (Rect.unit (s := ⟨2, ![256, 16]⟩) ![0, 0] ![256, 16] inb).toLoadRect (h.unread X)) hs) hc) hb (ix2 r g)
      = X (ix2 r ⟨k, by have h1 : k + 1 ≤ 16 := hs.2 1; omega⟩) := by
  have hk : k < 16 := by have h1 : k + 1 ≤ 16 := hs.2 1; omega
  rw [shapeCast_self]
  refine (broadcastTo_apply _ hb (ix2 r g) (ix2 r (0 : Fin 1)) fun a => ?_).trans ?_
  · match a with
    | ⟨0, _⟩ => rfl
    | ⟨1, _⟩ => rfl
  · refine (extractStridedSlice_apply _ _ hs (ix2 r (0 : Fin 1)) (ix2 r ⟨k, hk⟩) fun a => ?_).trans ?_
    · match a with
      | ⟨0, _⟩ => show r.val = 0 + r.val; omega
      | ⟨1, _⟩ => show k = k + 0; omega
    · refine (ld2 (Val := Elt Ideal) (e := .f32) m h X 0 256 16 inb r ⟨k, hk⟩).trans ?_
      exact congrArg X (funext fun d => match d with | ⟨0, _⟩ => rfl | ⟨1, _⟩ => Fin.ext (by show 0 + k = k; omega))

/-! ## A load of what a whole-buffer copy delivered -/

/-- A load of a rectangle (starting at row 0) of a buffer that ONE covering store `w` filled reads `w` at the rectangle's place. -/
theorem ldcov {sig : RefSig} {κ : Kind} {sp : Space} {e : EltTy} {Val : EltTy → Type} [∀ e, Nonempty (Val e)] {n0 n1 : Nat}
    (v : View sig κ sp ⟨2, ![n0, n1]⟩ e) (w : (⟨2, ![n0, n1]⟩ : Shape).Idx → Val e)
    (o m0 m1 : Nat) (inb : ∀ a, (![0, o] : Fin 2 → Nat) a + (![m0, m1] : Fin 2 → Nat) a ≤ (⟨2, ![n0, n1]⟩ : Shape).size a)
    (a : Fin m0) (b : Fin m1) :
    v.readCov [(⟨Rect.whole ⟨2, ![n0, n1]⟩, w⟩ : View.Piece Val ⟨2, ![n0, n1]⟩ e)]
        (Rect.unit (s := ⟨2, ![n0, n1]⟩) ![0, o] ![m0, m1] inb).toLoadRect (ix2 a b)
      = w (ix2 ⟨a.val, by have h : 0 + m0 ≤ n0 := inb 0; have := a.isLt; omega⟩ ⟨o + b.val, by have h : o + m1 ≤ n1 := inb 1; have := b.isLt; omega⟩) := by
  rw [View.readCov_eq_canon']
  show View.canon _ ((Rect.unit (s := ⟨2, ![n0, n1]⟩) ![0, o] ![m0, m1] inb).toLoadRect.idx (ix2 a b)) = _
  rw [idx_unit2]
  exact congrFun (View.canon_unit_zero (S := ⟨2, ![n0, n1]⟩) (off := fun _ => 0) rfl _ w) _

/-! ## The block product at an index -/

/-- The block product contracting both operands' second axis, into a zero accumulator, read at `(p, r)`. -/
theorem mm_apply (lhs : FVec Ideal S2048x512 .bf16) (rhs : FVec Ideal S256x512 .bf16) (p : Fin 2048) (r : Fin 256) :
    matmul dot_S2048x512_S256x512_S2048x256_1_1_0_0_n_n none lhs rhs (constant (F := Ideal) S2048x256 .f32 0x00000000#32) (ix2 p r)
      = ∑ g : Fin 512, lhs (ix2 p g) * rhs (ix2 r g) := by
  show FloatOps.matmul dot_S2048x512_S256x512_S2048x256_1_1_0_0_n_n none lhs rhs (constant (F := Ideal) S2048x256 .f32 0x00000000#32) (ix2 p r) = _
  rw [Ideal.matmul_constant_zero_apply,
    ← Equiv.sum_comp (contrEquiv1 dot_S2048x512_S256x512_S2048x256_1_1_0_0_n_n 512 rfl rfl).symm]
  refine Finset.sum_congr rfl fun g _ => ?_
  have c2 := contrEquiv1_symm_val dot_S2048x512_S256x512_S2048x256_1_1_0_0_n_n 512 rfl rfl g
  have l2 : dot_S2048x512_S256x512_S2048x256_1_1_0_0_n_n.lhsIdx (ix2 p r)
      ((contrEquiv1 dot_S2048x512_S256x512_S2048x256_1_1_0_0_n_n 512 rfl rfl).symm g) = ix2 p g := by
    funext ax; apply Fin.ext
    match ax with
    | ⟨0, _⟩ => simp [DotDims.lhsIdx, dot_S2048x512_S256x512_S2048x256_1_1_0_0_n_n]; rfl
    | ⟨1, _⟩ => simp [DotDims.lhsIdx, dot_S2048x512_S256x512_S2048x256_1_1_0_0_n_n]; exact c2
  have r2 : dot_S2048x512_S256x512_S2048x256_1_1_0_0_n_n.rhsIdx (ix2 p r)
      ((contrEquiv1 dot_S2048x512_S256x512_S2048x256_1_1_0_0_n_n 512 rfl rfl).symm g) = ix2 r g := by
    funext ax; apply Fin.ext
    match ax with
    | ⟨0, _⟩ => simp [DotDims.rhsIdx, dot_S2048x512_S256x512_S2048x256_1_1_0_0_n_n]; rfl
    | ⟨1, _⟩ => simp [DotDims.rhsIdx, dot_S2048x512_S256x512_S2048x256_1_1_0_0_n_n]; exact c2
  rw [l2, r2]

/-! ## The selection tree on a word -/

/-- A selection on the bit `a ≠ 0` is the `if` on `a ≠ 0`. -/
theorem sel_ne {α : Type} (a : BitVec 32) (x y : α) :
    Scalar.select (IntOp.cmpi .ne a 0#32) x y = if a ≠ 0#32 then x else y := by
  unfold Scalar.select IntOp.cmpi
  by_cases h : a = 0#32
  · subst h; simp
  · have hb : (a != 0#32) = true := by simp [bne, h]
    simp [h, hb]

/-- The arithmetic shift by the run's constant `8s + 4` (below the word width) followed by the mask `15` is the field `nib w s`,
    for `s = 0, 1, 2, 3`. -/
theorem nib_eq0 (w : BitVec 32) : IntOp.andi (IntOp.shrsi .vector w 4#32) 15#32 = Cert.Spec.nib w 0 := rfl
theorem nib_eq1 (w : BitVec 32) : IntOp.andi (IntOp.shrsi .vector w 12#32) 15#32 = Cert.Spec.nib w 1 := rfl
theorem nib_eq2 (w : BitVec 32) : IntOp.andi (IntOp.shrsi .vector w 20#32) 15#32 = Cert.Spec.nib w 2 := rfl
theorem nib_eq3 (w : BitVec 32) : IntOp.andi (IntOp.shrsi .vector w 28#32) 15#32 = Cert.Spec.nib w 3 := rfl

/-- The four-level selection over a row's sixteen table entries, decided by bits 0 (innermost) to 3 (outermost) of the
    four-bit field `nib w s`, picks the entry the field names. -/
theorem leaf (lb : (⟨2, ![256, 16]⟩ : Shape).Idx → EReal) (r : Fin 256) (w : BitVec 32) (s : Nat)
    (h0 : 0 < 16) (h1 : 1 < 16) (h2 : 2 < 16) (h3 : 3 < 16) (h4 : 4 < 16) (h5 : 5 < 16) (h6 : 6 < 16) (h7 : 7 < 16)
    (h8 : 8 < 16) (h9 : 9 < 16) (h10 : 10 < 16) (h11 : 11 < 16) (h12 : 12 < 16) (h13 : 13 < 16) (h14 : 14 < 16) (h15 : 15 < 16) :
    Scalar.select (IntOp.cmpi .ne (IntOp.andi (Cert.Spec.nib w s) 8#32) 0#32)
      (Scalar.select (IntOp.cmpi .ne (IntOp.andi (Cert.Spec.nib w s) 4#32) 0#32)
        (Scalar.select (IntOp.cmpi .ne (IntOp.andi (Cert.Spec.nib w s) 2#32) 0#32)
          (Scalar.select (IntOp.cmpi .ne (IntOp.andi (Cert.Spec.nib w s) 1#32) 0#32) (lb (ix2 r ⟨15, h15⟩)) (lb (ix2 r ⟨14, h14⟩)))
          (Scalar.select (IntOp.cmpi .ne (IntOp.andi (Cert.Spec.nib w s) 1#32) 0#32) (lb (ix2 r ⟨13, h13⟩)) (lb (ix2 r ⟨12, h12⟩))))
        (Scalar.select (IntOp.cmpi .ne (IntOp.andi (Cert.Spec.nib w s) 2#32) 0#32)
          (Scalar.select (IntOp.cmpi .ne (IntOp.andi (Cert.Spec.nib w s) 1#32) 0#32) (lb (ix2 r ⟨11, h11⟩)) (lb (ix2 r ⟨10, h10⟩)))
          (Scalar.select (IntOp.cmpi .ne (IntOp.andi (Cert.Spec.nib w s) 1#32) 0#32) (lb (ix2 r ⟨9, h9⟩)) (lb (ix2 r ⟨8, h8⟩)))))
      (Scalar.select (IntOp.cmpi .ne (IntOp.andi (Cert.Spec.nib w s) 4#32) 0#32)
        (Scalar.select (IntOp.cmpi .ne (IntOp.andi (Cert.Spec.nib w s) 2#32) 0#32)
          (Scalar.select (IntOp.cmpi .ne (IntOp.andi (Cert.Spec.nib w s) 1#32) 0#32) (lb (ix2 r ⟨7, h7⟩)) (lb (ix2 r ⟨6, h6⟩)))
          (Scalar.select (IntOp.cmpi .ne (IntOp.andi (Cert.Spec.nib w s) 1#32) 0#32) (lb (ix2 r ⟨5, h5⟩)) (lb (ix2 r ⟨4, h4⟩))))
        (Scalar.select (IntOp.cmpi .ne (IntOp.andi (Cert.Spec.nib w s) 2#32) 0#32)
          (Scalar.select (IntOp.cmpi .ne (IntOp.andi (Cert.Spec.nib w s) 1#32) 0#32) (lb (ix2 r ⟨3, h3⟩)) (lb (ix2 r ⟨2, h2⟩)))
          (Scalar.select (IntOp.cmpi .ne (IntOp.andi (Cert.Spec.nib w s) 1#32) 0#32) (lb (ix2 r ⟨1, h1⟩)) (lb (ix2 r ⟨0, h0⟩)))))
      = lb (ix2 r ⟨(Cert.Spec.nib w s).toNat, Cert.Spec.nib_lt w s⟩) := by
  simp only [sel_ne, IntOp.andi]
  exact Cert.Alg.tree16 (Cert.Spec.nib w s) (Cert.Spec.nib_lt w s) (fun k => lb (ix2 r k))

/-- A sum over sixteen runs, written out run by run in the order the runs are added up. -/
theorem sum16 {M : Type*} [AddCommMonoid M] (f : Fin 16 → M) :
    ∑ j : Fin 16, f j
      = f ⟨0, by omega⟩ + f ⟨1, by omega⟩ + f ⟨2, by omega⟩ + f ⟨3, by omega⟩ + f ⟨4, by omega⟩ + f ⟨5, by omega⟩ + f ⟨6, by omega⟩
        + f ⟨7, by omega⟩ + f ⟨8, by omega⟩ + f ⟨9, by omega⟩ + f ⟨10, by omega⟩ + f ⟨11, by omega⟩ + f ⟨12, by omega⟩
        + f ⟨13, by omega⟩ + f ⟨14, by omega⟩ + f ⟨15, by omega⟩ := by
  simp only [Fin.sum_univ_castSucc, Fin.sum_univ_zero, zero_add]
  rfl

/-- A point that does not refill the scratch computes its block from what the scratch already holds. -/
theorem out_B (c : Dev nD) (i : grid0.Coords) (arg3 : Memref sig .tc .vmem S256x2048 .i32) (harg3 : arg3.IsWhole) (arg4 : Memref sig .tc .vmem S256x16 .f32) (harg4 : arg4.IsWhole) (arg5 : Memref sig .tc .vmem S2048x256 .f32) (harg5 : arg5.IsWhole) (arg6 : Memref sig .tc .vmem S2048x8192 .bf16) (harg6 : arg6.IsWhole) (hc0 : ¬cond0_0 i) (hc1 : ¬cond0_1 i)
    (x0 : Vec Ideal S256x2048 .i32) (x1 : Vec Ideal S256x16 .f32) (xs0 : Vec Ideal S2048x8192 .bf16) (fh0 : HbBuf0 (F := Ideal) c hbM0_0) (p : Fin 2048) (r : Fin 256) :
    out0_B_2 (F := Ideal) c i arg3 harg3 arg4 harg4 arg5 harg5 arg6 harg6 hc0 hc1 x0 x1 xs0 fh0 (ix2 p r) = blockAt xs0 x0 x1 p r := by
  unfold out0_B_2
  rw [View.read_writes_eq_canon _ _ _ (cover0_B_2 c i arg3 harg3 arg4 harg4 arg5 harg5 arg6 harg6 hc0 hc1 x0 x1 xs0 fh0)]
  unfold kernelRun0_B
  dsimp only
  sl_unfold_words
  rw [View.canon_unit_zero hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, addf_apply, mm_apply, truncf_apply, select_apply, cmpi_apply, andi_apply, shrsi_apply, broadcast_apply, col_apply, ld2, nib_eq0, nib_eq1, nib_eq2, nib_eq3, leaf]
  unfold blockAt
  rw [sum16]
  rfl

/-- A point that refills the scratch from the permuted `x` computes its block from that copy. -/
theorem out_A (c : Dev nD) (i : grid0.Coords) (arg3 : Memref sig .tc .vmem S256x2048 .i32) (harg3 : arg3.IsWhole) (arg4 : Memref sig .tc .vmem S256x16 .f32) (harg4 : arg4.IsWhole) (arg5 : Memref sig .tc .vmem S2048x256 .f32) (harg5 : arg5.IsWhole) (arg6 : Memref sig .tc .vmem S2048x8192 .bf16) (harg6 : arg6.IsWhole) (hc0 : cond0_0 i) (hc1 : cond0_1 i)
    (x0 : Vec Ideal S256x2048 .i32) (x1 : Vec Ideal S256x16 .f32) (fh0 : HbBuf0 (F := Ideal) c hbM0_0) (p : Fin 2048) (r : Fin 256) :
    out0_A_2 (F := Ideal) c i arg3 harg3 arg4 harg4 arg5 harg5 arg6 harg6 hc0 hc1 x0 x1 fh0 (ix2 p r) = blockAt fh0 x0 x1 p r := by
  unfold out0_A_2
  rw [View.read_writes_eq_canon _ _ _ (cover0_A_2 c i arg3 harg3 arg4 harg4 arg5 harg5 arg6 harg6 hc0 hc1 x0 x1 fh0)]
  unfold kernelRun0_A
  dsimp only
  sl_unfold_words
  rw [View.canon_unit_zero hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, addf_apply, mm_apply, truncf_apply, select_apply, cmpi_apply, andi_apply, shrsi_apply, broadcast_apply, col_apply, ld2, nib_eq0, nib_eq1, nib_eq2, nib_eq3, leaf, ldcov, ReadAs.apply_same, View.read_whole]
  unfold blockAt
  rw [sum16]
  rfl

/-- and leaves the scratch holding exactly that copy. -/
theorem sout_A (c : Dev nD) (i : grid0.Coords) (arg3 : Memref sig .tc .vmem S256x2048 .i32) (harg3 : arg3.IsWhole) (arg4 : Memref sig .tc .vmem S256x16 .f32) (harg4 : arg4.IsWhole) (arg5 : Memref sig .tc .vmem S2048x256 .f32) (harg5 : arg5.IsWhole) (arg6 : Memref sig .tc .vmem S2048x8192 .bf16) (harg6 : arg6.IsWhole) (hc0 : cond0_0 i) (hc1 : cond0_1 i)
    (x0 : Vec Ideal S256x2048 .i32) (x1 : Vec Ideal S256x16 .f32) (fh0 : HbBuf0 (F := Ideal) c hbM0_0) :
    sout0_A_0 (F := Ideal) c i arg3 harg3 arg4 harg4 arg5 harg5 arg6 harg6 hc0 hc1 x0 x1 fh0 = fh0 := by
  unfold sout0_A_0
  rw [View.read_writes_eq_canon _ _ _ (scover0_A_0 c i arg3 harg3 arg4 harg4 arg5 harg5 arg6 harg6 hc0 hc1 x0 x1 fh0)]
  unfold kernelRun0_A
  dsimp only
  sl_unfold_words
  refine (View.canon_unit_zero (S := S2048x8192) (off := fun _ => 0) rfl _ _).trans ?_
  rfl

end Cert.KernelIdeal.KBlock

end
-- ==== Proof.KPrefix.lean ====
/-
  What the kernel's region finds in the array it copies into scratch: the host operations before the region flatten
  `x` to 2048 × 8192, split its column axis as (word g, byte s) with `k = 4g + s`, swap those two axes and flatten
  again, so column `2048·s + g` of the permuted array is column `4g + s` of `x` (the change of float format in between
  is the identity over the extended reals).
-/
import proofs.«414830_j5643587027570_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.KPrefix

open Idealize.ShloMosaic Idealize.ShloMosaic.TcCoe Idealize.SL.Sem Idealize.ShloMosaic.ValueIdx
open Cert.KernelIdeal Cert.KernelIdeal.Gen

/-! ## The two reshapes that split or merge the column axis, read at coordinates -/

/-- An `[a, n]` array with `n = b·c` cast to `[a, b, c]` reads, at `(i, j, k)`, the operand at `(i, c·j + k)`: both have
    row-major position `(i·b + j)·c + k`. -/
theorem shapeCast_split_apply {α : Type} {a b c n : ℕ} (x : (⟨2, ![a, n]⟩ : Shape).Idx → α)
    (h : (⟨2, ![a, n]⟩ : Shape).ShapeCasts ⟨3, ![a, b, c]⟩) (hn : n = b * c)
    (i : Fin a) (j : Fin b) (k : Fin c) (q : Fin n) (hq : q.val = c * j.val + k.val) :
    shapeCast ⟨3, ![a, b, c]⟩ x h (ix3 i j k) = x (ix2 i q) :=
  shapeCast_apply x h _ _ (by
    rw [Shape.rowMajor_val_three, Shape.rowMajor_val_two]
    show i.val * n + q.val = (i.val * b + j.val) * c + k.val
    rw [hq, hn, Nat.add_mul, Nat.mul_assoc, Nat.mul_comm c j.val, Nat.add_assoc])

/-- An `[a, b, c]` array cast to `[a, n]` with `n = b·c` reads, at `(i, c·j + k)`, the operand at `(i, j, k)`. -/
theorem shapeCast_merge_apply {α : Type} {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = c * j.val + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn, Nat.add_mul, Nat.mul_assoc, Nat.mul_comm c j.val, Nat.add_assoc])

variable (m : (ℓ : Loc nD τ sig) → Buf (Elt Ideal) ℓ)

/-! ## The permuted array as a term in `x` -/

/-- What the five host operations before the region leave in the array the region copies: `x` flattened to
    2048 × 8192, its float format changed, its column axis split as 2048 × 4, the two new axes swapped, and the
    result flattened again. -/
theorem V_main_v4 (c : Dev nD) :
    (V m c main_v4 : S2048x8192.Idx → EReal)
      = shapeCast S2048x8192
          (transpose S2048x4x2048 [0, 2, 1]
            (shapeCast S2048x2048x4
              (truncf .bf16
                (shapeCast S2048x8192 (m ((c.tc : Thread nD τ).loc main_arg0) : S1x2048x8192.Idx → EReal)
                  shapeCasts_S1x2048x8192_S2048x8192 : FVec Ideal S2048x8192 .f32)
                bitsLt_bf16_f32 : FVec Ideal S2048x8192 .bf16)
              shapeCasts_S2048x8192_S2048x2048x4)
            transposes_S2048x2048x4_S2048x4x2048_0_2_1)
          shapeCasts_S2048x4x2048_S2048x8192 := by
  show StableHlo.after hostOps0 (fun b => m (c, b)) (Proc.devRef .tc main_v4) = _
  after_results
  rfl

/-! ## Read at an entry -/

/-- Entry `(p, 2048·s + g)` of the permuted array the region finds is entry `(0, p, 4g + s)` of `x` as launched. -/
theorem xperm_apply (c : Dev nD) (p : Fin 2048) (s : Fin 4) (g : Fin 2048) :
    (V m c main_v4 : S2048x8192.Idx → EReal) (ix2 p ⟨2048 * s.val + g.val, by have := s.isLt; have := g.isLt; omega⟩)
      = (m ((c.tc : Thread nD τ).loc main_arg0) : S1x2048x8192.Idx → EReal)
          (ix3 (0 : Fin 1) p ⟨4 * g.val + s.val, by have := s.isLt; have := g.isLt; omega⟩) := by
  -- outermost first: `(p, 2048·s + g)` of the flattened array is `(p, s, g)` of the 2048 × 4 × 2048 one; the swap reads
  -- `(p, g, s)` of the 2048 × 2048 × 4 one; that is `(p, 4g + s)` of the 2048 × 8192 one (the format change keeps every
  -- entry); and that is `(0, p, 4g + s)` of `x`
  rw [V_main_v4 m c,
    shapeCast_merge_apply _ shapeCasts_S2048x4x2048_S2048x8192 rfl p s g _ rfl,
    transpose_ix3_021_apply _ transposes_S2048x2048x4_S2048x4x2048_0_2_1 p s g,
    shapeCast_split_apply _ shapeCasts_S2048x8192_S2048x2048x4 rfl p g s
      ⟨4 * g.val + s.val, by have := s.isLt; have := g.isLt; omega⟩ rfl,
    truncf_apply,
    shapeCast_1ab_ab_apply _ shapeCasts_S1x2048x8192_S2048x8192 p _]

end Cert.KernelIdeal.KPrefix

end
-- ==== Proof.KValue.lean ====
/-
  The kernel's result array, read off its frame run.

  The kernel keeps a copy of the shift-major permuted `x` in a scratch buffer that it fills at the first point of each
  half of the grid and carries through the other points; so at EVERY point the scratch holds that permuted array
  (`scratch_eq`, by induction on the point), and the block a point writes back is the sixteen-run double sum over that
  array and the point's blocks of packed words and table rows (`out_eq`). Point `t` handles output rows
  `256·t … 256·t + 255` of the weight (columns of the result); un-permuting the columns turns the sixteen runs back into
  the plain sum over the 8192 input columns (`block_eq_entry`), the 32 blocks tile the 2048 × 8192 result (`final`),
  and the one host operation after the region only adds the batch axis of extent 1 (`tail_eq`).
-/
import proofs.«414830_j5643587027570_3_alg».proof.Proof.Gen.KernelIdeal.Frame
import proofs.«414830_j5643587027570_3_alg».proof.Proof.Spec
import proofs.«414830_j5643587027570_3_alg».proof.Proof.Algebra
import proofs.«414830_j5643587027570_3_alg».proof.Proof.KBlock
import proofs.«414830_j5643587027570_3_alg».proof.Proof.KPrefix
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KBlock
open scoped BigOperators

variable (m : (ℓ : Loc nD τ sig) → Buf (Elt Ideal) ℓ) (ρ : Dev nD → PrngReg)

/-! ## The arrays and blocks, at their literal types -/

/-- The three arguments as launched. -/
abbrev xin (c : Dev nD) : S1x2048x8192.Idx → EReal := m ((c.tc : Thread nD τ).loc main_arg0)
abbrev qin (c : Dev nD) : S8192x2048.Idx → BitVec 32 := m ((c.tc : Thread nD τ).loc main_arg1)
abbrev lin (c : Dev nD) : S8192x16.Idx → EReal := m ((c.tc : Thread nD τ).loc main_arg2)
/-- The permuted `x` the region finds, and a point's blocks of packed words and of table rows. -/
abbrev xarr (c : Dev nD) : S2048x8192.Idx → EReal := V m c main_v4
abbrev qblk (c : Dev nD) (t : Fin cfg0.N) : S256x2048.Idx → BitVec 32 := iblk m c 0 t
abbrev lblk (c : Dev nD) (t : Fin cfg0.N) : S256x16.Idx → EReal := iblk m c 1 t

/-! ## Every point finds the permuted array in the scratch -/

theorem scratch_eq (c : Dev nD) : ∀ (n : ℕ) (h : n < cfg0.N), (outsAt0 m c n h).2 = V m c main_v4 := by
  intro n
  induction n with
  | zero =>
    intro h
    rw [outsAt0_A m c ⟨0, h⟩ (Nat.zero_mod _) (Nat.zero_mod _)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr (Nat.zero_mod _)) ((hcond0_1 ⟨0, h⟩).mpr (Nat.zero_mod _)) (iblk m c 0 ⟨0, h⟩) (iblk m c 1 ⟨0, h⟩) (V m c main_v4)
  | succ n ih =>
    intro h
    by_cases h0 : (n + 1) % 16 = 0
    · rw [outsAt0_A m c ⟨n + 1, h⟩ h0 h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) ((hcond0_1 ⟨n + 1, h⟩).mpr h0) (iblk m c 0 ⟨n + 1, h⟩) (iblk m c 1 ⟨n + 1, h⟩) (V m c main_v4)
    · rw [outsAt0_B m c ⟨n + 1, h⟩ h0 h0]
      dsimp only
      unfold sout0_B_0
      exact ih (Nat.lt_of_succ_lt h)

/-- What point `t` leaves in the output's staging buffer, entry by entry. -/
theorem out_eq (c : Dev nD) (t : Fin cfg0.N) (p : Fin 2048) (r : Fin 256) :
    (outsAt0 m c t.val t.isLt).1 (ix2 p r) = blockAt (xarr m c) (qblk m c t) (lblk m c t) p r := by
  by_cases h0 : t.val % 16 = 0
  · rw [outsAt0_A m c t h0 h0]
    dsimp only
    exact out_A c (grid0.coords t) (ms0_0 t) (hs0_0 t) (ms0_1 t) (hs0_1 t) (ms0_2 t) (hs0_2 t) scM0_0 (Memref.isWhole_whole _) ((hcond0_0 t).mpr h0) ((hcond0_1 t).mpr h0) (iblk m c 0 t) (iblk m c 1 t) (V m c main_v4) p r
  · rw [outsAt0_B m c t h0 h0]
    dsimp only
    rw [out_B c (grid0.coords t) (ms0_0 t) (hs0_0 t) (ms0_1 t) (hs0_1 t) (ms0_2 t) (hs0_2 t) scM0_0 (Memref.isWhole_whole _) (fun h => h0 ((hcond0_0 t).mp h)) (fun h => h0 ((hcond0_1 t).mp h)) (iblk m c 0 t) (iblk m c 1 t) ((outsAt0 m c (t.val - 1) (Nat.lt_of_le_of_lt (Nat.sub_le _ _) t.isLt)).2) (V m c main_v4) p r,
      scratch_eq m c (t.val - 1) _]

/-! ## The windows' blocks, read off the argument arrays -/

/-- The printed index maps over the grid: point `t` takes row block `t` of the packed words and of the table, and writes
    column block `t` of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

theorem t_lt (t : Fin cfg0.N) : t.val < 32 := lt_of_lt_of_eq t.isLt (show cfg0.N = 32 from N_0)

theorem qblk_apply (c : Dev nD) (t : Fin cfg0.N) (r : Fin 256) (g : Fin 2048) :
    qblk m c t (ix2 r g) = qin m c (ix2 ⟨256 * t.val + r.val, by have := t_lt t; have := r.isLt; omega⟩ g) := by
  obtain ⟨e0, e1, -⟩ := idx_facts t
  unfold qblk iblk
  rw [View.read_apply]
  show V m c main_arg1 _ = m ((c.tc : Thread nD τ).loc main_arg1) _
  rw [V_main_arg1]
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 2048 + 1 * g.val = g.val; rw [e1]; omega

theorem lblk_apply (c : Dev nD) (t : Fin cfg0.N) (r : Fin 256) (e : Fin 16) :
    lblk m c t (ix2 r e) = lin m c (ix2 ⟨256 * t.val + r.val, by have := t_lt t; have := r.isLt; omega⟩ e) := by
  obtain ⟨-, -, e2, e3, -⟩ := idx_facts t
  unfold lblk iblk
  rw [View.read_apply]
  show V m c main_arg2 _ = m ((c.tc : Thread nD τ).loc main_arg2) _
  rw [V_main_arg2]
  congr 1
  funext a
  apply Fin.ext
  match a with
  | ⟨0, _⟩ => show win0_1.index t (0 : Fin 2) * 256 + 1 * r.val = 256 * t.val + r.val; rw [e2]; omega
  | ⟨1, _⟩ => show win0_1.index t (1 : Fin 2) * 16 + 1 * e.val = e.val; rw [e3]; omega

/-- Column `2048·s + g` of the permuted array is column `4g + s` of `x`. -/
theorem xarr_apply (c : Dev nD) (p : Fin 2048) (s : Fin 4) (g : Fin 2048) :
    xarr m c (ix2 p ⟨2048 * s.val + g.val, by have := s.isLt; have := g.isLt; omega⟩)
      = xin m c (ix3 (0 : Fin 1) p ⟨4 * g.val + s.val, by have := s.isLt; have := g.isLt; omega⟩) :=
  Cert.KernelIdeal.KPrefix.xperm_apply m c p s g

/-! ## A point's block is a block of the product -/

/-- The table entry of input column `k`, from the word it lies in and its byte number. -/
theorem code_val (q : S8192x2048.Idx → BitVec 32) (o k : Fin 8192) (g' : Fin 2048) (s : Nat)
    (h1 : k.val / 4 = g'.val) (h2 : k.val % 4 = s) :
    (Cert.Spec.code q o k).val = (Cert.Spec.nib (q (ix2 o g')) s).toNat := by
  subst h2
  have hg : (⟨k.val / 4, by have := k.isLt; omega⟩ : Fin 2048) = g' := Fin.ext h1
  unfold Cert.Spec.code
  dsimp only
  rw [hg]

/-- The regrouping, over any arrays: if the permuted array `xa` reads `x` with its columns shift-major, and the blocks
    `qb`, `lb` are row `o` of the packed words and of the table seen at local row `r`, then the sixteen-run double sum
    is the plain product entry. Run `j`, position `g` is input column `k = 4·(512·(j % 4) + g) + j / 4`, whose word is
    `k / 4` and whose byte is `k % 4`. -/
theorem regroup_entry (xa : S2048x8192.Idx → EReal) (x : S1x2048x8192.Idx → EReal)
    (qb : S256x2048.Idx → BitVec 32) (lb : S256x16.Idx → EReal)
    (q : S8192x2048.Idx → BitVec 32) (lut : S8192x16.Idx → EReal) (o : Fin 8192) (p : Fin 2048) (r : Fin 256)
    (hx : ∀ (s : Fin 4) (g : Fin 2048),
      xa (ix2 p ⟨2048 * s.val + g.val, by have := s.isLt; have := g.isLt; omega⟩)
        = x (ix3 (0 : Fin 1) p ⟨4 * g.val + s.val, by have := s.isLt; have := g.isLt; omega⟩))
    (hq : ∀ g : Fin 2048, qb (ix2 r g) = q (ix2 o g))
    (hl : ∀ e : Fin 16, lb (ix2 r e) = lut (ix2 o e)) :
    blockAt xa qb lb p r = Cert.Spec.entry x q lut p o := by
  unfold blockAt Cert.Spec.entry
  rw [Cert.Alg.sum_regroup]
  refine Finset.sum_congr rfl fun j _ => Finset.sum_congr rfl fun g _ => ?_
  have hj : j.val < 16 := j.isLt
  have hg : g.val < 512 := g.isLt
  have hxi : (⟨512 * j.val + g.val, by omega⟩ : Fin 8192)
      = ⟨2048 * (⟨j.val / 4, by omega⟩ : Fin 4).val + (⟨512 * (j.val % 4) + g.val, by omega⟩ : Fin 2048).val, by dsimp only; omega⟩ :=
    Fin.ext (by dsimp only; omega)
  have hcode : (⟨(Cert.Spec.nib (qb (ix2 r ⟨512 * (j.val % 4) + g.val, by omega⟩)) (j.val / 4)).toNat, Cert.Spec.nib_lt _ _⟩ : Fin 16)
      = Cert.Spec.code q o ⟨4 * (512 * (j.val % 4) + g.val) + j.val / 4, by omega⟩ := by
    apply Fin.ext
    dsimp only
    rw [hq]
    exact (code_val q o _ ⟨512 * (j.val % 4) + g.val, by omega⟩ (j.val / 4) (by dsimp only; omega) (by dsimp only; omega)).symm
  rw [hxi, hx ⟨j.val / 4, by omega⟩ ⟨512 * (j.val % 4) + g.val, by omega⟩, hl, hcode]
  rfl

/-- Entry `(p, r)` of point `t`'s block is entry `(p, 256·t + r)` of `x · Wᵀ`. -/
theorem block_eq_entry (c : Dev nD) (t : Fin cfg0.N) (p : Fin 2048) (r : Fin 256) :
    blockAt (xarr m c) (qblk m c t) (lblk m c t) p r
      = Cert.Spec.entry (xin m c) (qin m c) (lin m c) p ⟨256 * t.val + r.val, by have := t_lt t; have := r.isLt; omega⟩ :=
  regroup_entry (xarr m c) (xin m c) (qblk m c t) (lblk m c t) (qin m c) (lin m c) _ p r
    (fun s g => xarr_apply m c p s g) (fun g => qblk_apply m c t r g) (fun e => lblk_apply m c t r e)

/-! ## From blocks to the array -/

/-- The result array of the region: `x · Wᵀ` as a 2048 × 8192 array. -/
def KG (c : Dev nD) : S2048x8192.Idx → EReal :=
  fun i => Cert.Spec.entry (xin m c) (qin m c) (lin m c) ⟨(i 0).val, (i 0).isLt⟩ ⟨(i 1).val, (i 1).isLt⟩

/-- What point `t` writes back is block `t` of it. -/
theorem flushed_eq (c : Dev nD) (t : Fin cfg0.N) :
    (dats m 0 c).flushed 2 t = ((cfg0.win 2).blk t).view.read (Elt Ideal) (KG m c) := by
  obtain ⟨-, -, -, -, e4, e5⟩ := idx_facts t
  show (cfg0.win 2).cut (grid0.coords t) ((dats m 0 c).after 2 t) = _
  rw [after0_2]
  funext y
  obtain ⟨p, r, rfl⟩ : ∃ (p : Fin 2048) (r : Fin 256), y = ix2 p r := ⟨y 0, y 1, eq_ix2 y⟩
  show (outsAt0 m c t.val t.isLt).1 (ix2 p r) = KG m c (((cfg0.win 2).blk t).view.emb (ix2 p r))
  have he : ((cfg0.win 2).blk t).view.emb (ix2 p r)
      = ix2 p (⟨256 * t.val + r.val, by have := t_lt t; have := r.isLt; omega⟩ : Fin 8192) := by
    funext a
    apply Fin.ext
    match a with
    | ⟨0, _⟩ => show win0_2.index t (0 : Fin 2) * 2048 + 1 * p.val = p.val; rw [e4]; omega
    | ⟨1, _⟩ => show win0_2.index t (1 : Fin 2) * 256 + 1 * r.val = 256 * t.val + r.val; rw [e5]; omega
  rw [he, out_eq, block_eq_entry]
  rfl

/-- An index of the result is in point `t`'s block iff each coordinate is in the block's range. -/
theorem mem_blk (t : Fin cfg0.N) (i : S2048x8192.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v5).slice (win0_2.rect t)).set ↔ _
  rw [View.set_slice_whole, Rect.mem_set_unit]
  exact Iff.rfl

/-- The 32 column blocks tile the result: after the run the array is `x · Wᵀ`. -/
theorem final (c : Dev nD) : (dats m 0 c).arrAt 2 cfg0.N = KG m c :=
  (dats m 0 c).arrAt_eq_of_cover 2 (KG m c) (fun t _ => flushed_eq m c t) fun i => by
    have hi0 : (i 0).val < 2048 := (i 0).isLt
    have hi1 : (i 1).val < 8192 := (i 1).isLt
    have hN : cfg0.N = 32 := N_0
    refine ⟨⟨(i 1).val / 256, by omega⟩, flush0_2 _, ?_⟩
    obtain ⟨-, -, -, -, e4, e5⟩ := idx_facts ⟨(i 1).val / 256, by omega⟩
    rw [mem_blk]
    intro a
    match a with
    | ⟨0, _⟩ =>
      show win0_2.index _ (0 : Fin 2) * 2048 ≤ (i 0).val ∧ (i 0).val < win0_2.index _ (0 : Fin 2) * 2048 + 2048
      rw [e4]; omega
    | ⟨1, _⟩ =>
      show win0_2.index _ (1 : Fin 2) * 256 ≤ (i 1).val ∧ (i 1).val < win0_2.index _ (1 : Fin 2) * 256 + 256
      rw [e5]; dsimp only; omega

/-! ## The operation after the region, and the run -/

/-- The program's result: the region's array with the batch axis of extent 1 put back. -/
theorem tail_eq (c : Dev nD) :
    Pipeline.afterTail₀ cfgs (dats m) 0 (V0 m) [hostOps1] c main_v6 = Cert.Spec.G (xin m c) (qin m c) (lin m c) := by
  unfold Pipeline.afterTail₀
  show StableHlo.after hostOps1 _ (Proc.devRef .tc main_v6) = _
  after_results
  rw [Pipeline.withArrays_arr spec0 launch0.win.arr_inj c _ _ 2, final]
  funext i
  obtain ⟨b, p, o, rfl⟩ : ∃ (b : Fin 1) (p : Fin 2048) (o : Fin 8192), i = ix3 b p o := ⟨i 0, i 1, i 2, eq_ix3 i⟩
  rfl

/-- The kernel's run: every weakly fair execution ends with the result at the specification of the arguments as
    launched, and the arguments unchanged. -/
theorem run : θ_run defs (onTc (τ := τ) (main (F := Ideal))) ⟨m, fun _ => 0, ρ⟩ (fun r => ∀ c : Dev nD,
      r.2.mem ((c.tc : Thread nD τ).loc main_v6) = Cert.Spec.G (xin m c) (qin m c) (lin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.KValue

end
-- ==== Proof.lean ====
/-
  The certificate: a fused dequantise-and-multiply kernel against its plain reference.

  Both programs compute `out[0, p, o] = ∑ₖ x[0, p, k] · lut[o, f(q[o, k / 4], k % 4)]`, where `f(w, s)` is bits
  `8s + 4 … 8s + 7` of the packed word `w` (the top four bits of its byte number `s`).
  The reference extracts the byte, drops its low four bits, and gathers from the 16-entry table row with a range test
  that can never fail (the index is a four-bit field), then contracts against `x`. The kernel fuses the two shifts,
  replaces the gather by a four-level binary selection among the row's sixteen entries, permutes `x`'s columns
  shift-major on the host, and accumulates sixteen partial products per block; un-permuting the columns turns its
  sixteen runs back into the one sum. Over the extended reals only commutativity and associativity of the sum are
  used, so the precondition on finite inputs is never opened. The two kernel frames are the generated frame runs; the
  reference's frame is its run with the result dropped; the ideal pass rewrote nothing.
-/
import proofs.«414830_j5643587027570_3_alg».proof.Defs
import proofs.«414830_j5643587027570_3_alg».proof.Proof.Gen.Kernel
import proofs.«414830_j5643587027570_3_alg».proof.Proof.Gen.Kernel.Frame
import proofs.«414830_j5643587027570_3_alg».proof.Proof.Gen.KernelIdeal
import proofs.«414830_j5643587027570_3_alg».proof.Proof.Gen.KernelIdeal.Frame
import proofs.«414830_j5643587027570_3_alg».proof.Proof.Gen.ReferenceIdeal
import proofs.«414830_j5643587027570_3_alg».proof.Proof.Gen.Pre_finite_inputs
import proofs.«414830_j5643587027570_3_alg».proof.Proof.RefRun
import proofs.«414830_j5643587027570_3_alg».proof.Proof.RefValue
import proofs.«414830_j5643587027570_3_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments, the kernel's result is the specification of its arguments and the
    reference's result is the specification of its own, which are the same arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
